-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S16000000x1 : Shape := ⟨2, ![16000000, 1]⟩
abbrev S16000000 : Shape := ⟨1, ![16000000]⟩
abbrev S1x10 : Shape := ⟨2, ![1, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S16000000x1 : S_.BroadcastsInDim S16000000x1 (![] : Fin 0 → Fin S16000000x1.rank)
  reducesTo_S16000000x1_S_d0_1 : S16000000x1.ReducesTo [0, 1] S_
  bcast_S_S1x10 : S_.BroadcastsInDim S1x10 (![] : Fin 0 → Fin S1x10.rank)
  reducesTo_S1x10_S_d0_1 : S1x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S10 .f32) (main_arg7 : FVec F S10x1 .f32) (main_arg8 : FVec F S10x1 .f32) (main_arg9 : FVec F S1 .f32) (main_v13 : IVec S_ 1) (main_v16 : IVec S1x10 1) : IVec S_ 1 :=
  let main_c_5 : IVec S_ 1 := constantI S_ 1 1#1
  let main_v17 : IVec S_ 1 := (fun x v => Host.reduce IntOp.andi x v reducesTo_S1x10_S_d0_1 h_S_) main_v16 main_c_5
  let main_v18 : IVec S_ 1 := andi main_v13 main_v17
  let main_v19 : FVec F S10 .f32 := Host.absf main_arg6
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x1 .f32 := Host.absf main_arg7
  let main_cst_8 : FVec F S_ .f32 := constant S_ .f32 0x7F800000#32
  let main_v25 : FVec F S10x1 .f32 := broadcastInDim S10x1 ![] bcast_S_S10x1 main_cst_8
  let main_v26 : IVec S10x1 1 := cmpf .olt main_v24 main_v25
  let main_c_9 : IVec S_ 1 := constantI S_ 1 1#1
  let main_v27 : IVec S_ 1 := (fun x v => Host.reduce IntOp.andi x v reducesTo_S10x1_S_d0_1 h_S_) main_v26 main_c_9
  let main_v28 : IVec S_ 1 := andi main_v23 main_v27
  let main_v29 : FVec F S10x1 .f32 := Host.absf main_arg8
  let main_cst_10 : FVec F S_ .f32 := constant S_ .f32 0x7F800000#32
  let main_v30 : FVec F S10x1 .f32 := broadcastInDim S10x1 ![] bcast_S_S10x1 main_cst_10
  let main_v31 : IVec S10x1 1 := cmpf .olt main_v29 main_v30
  let main_c_11 : IVec S_ 1 := constantI S_ 1 1#1
  let main_v32 : IVec S_ 1 := (fun x v => Host.reduce IntOp.andi x v reducesTo_S10x1_S_d0_1 h_S_) main_v31 main_c_11
  let main_v33 : IVec S_ 1 := andi main_v28 main_v32
  fn_part2 (F := F) main_arg9 main_v33

def fn {F : FTy → Type} [FloatOps F] (main_arg0 : FVec F S500000x1 .f32) (main_arg1 : FVec F S16000000x1 .f32) (main_arg2 : IVec S16000000 32) (main_arg3 : IVec S16000000 32) (main_arg4 : FVec F S1x10 .f32) (main_arg5 : FVec F S1x10 .f32) (main_arg6 : FVec F S10 .f32) (main_arg7 : FVec F S10x1 .f32) (main_arg8 : FVec F S10x1 .f32) (main_arg9 : FVec F S1 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S16000000x1 .f32 := Host.absf main_arg1
  let main_cst_0 : FVec F S_ .f32 := constant S_ .f32 0x7F800000#32
  let main_v5 : FVec F S16000000x1 .f32 := broadcastInDim S16000000x1 ![] bcast_S_S16000000x1 main_cst_0
  let main_v6 : IVec S16000000x1 1 := cmpf .olt main_v4 main_v5
  let main_c_1 : IVec S_ 1 := constantI S_ 1 1#1
  let main_v7 : IVec S_ 1 := (fun x v => Host.reduce IntOp.andi x v reducesTo_S16000000x1_S_d0_1 h_S_) main_v6 main_c_1
  let main_v8 : IVec S_ 1 := andi main_v3 main_v7
  let main_v9 : FVec F S1x10 .f32 := Host.absf main_arg4
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  let main_v14 : FVec F S1x10 .f32 := Host.absf main_arg5
  let main_cst_4 : FVec F S_ .f32 := constant S_ .f32 0x7F800000#32
  let main_v15 : FVec F S1x10 .f32 := broadcastInDim S1x10 ![] bcast_S_S1x10 main_cst_4
  let main_v16 : IVec S1x10 1 := cmpf .olt main_v14 main_v15
  fn_part1 (F := F) main_arg6 main_arg7 main_arg8 main_arg9 main_v13 main_v16
-- ==== Kernel.lean ====
abbrev S500000x1 : Shape := ⟨2, ![500000, 1]⟩
abbrev S16000000x1 : Shape := ⟨2, ![16000000, 1]⟩
abbrev S16000000 : Shape := ⟨1, ![16000000]⟩
abbrev S1x10 : Shape := ⟨2, ![1, 10]⟩
abbrev S10 : Shape := ⟨1, ![10]⟩
abbrev S10x1 : Shape := ⟨2, ![10, 1]⟩
abbrev S1 : Shape := ⟨1, ![1]⟩
abbrev S_ : Shape := ⟨0, ![]⟩
abbrev S1x1 : Shape := ⟨2, ![1, 1]⟩
abbrev S2000x1 : Shape := ⟨2, ![2000, 1]⟩
abbrev S2000x10 : Shape := ⟨2, ![2000, 10]⟩
abbrev S2000 : Shape := ⟨1, ![2000]⟩

abbrev nBuf : Space → Nat
  | .hbm => 52
  | .vmem => 24
  | .smem => 0
  | _ => 0

abbrev bufTy : (tb : Table) → Fin (tcTables nBuf tb) → BufTy
  | .hbm, ⟨0, _⟩ => ⟨S500000x1, .f32⟩
  | .hbm, ⟨1, _⟩ => ⟨S16000000x1, .f32⟩
  | .hbm, ⟨2, _⟩ => ⟨S16000000, .i32⟩
  | .hbm, ⟨3, _⟩ => ⟨S16000000, .i32⟩
  | .hbm, ⟨4, _⟩ => ⟨S1x10, .f32⟩
  | .hbm, ⟨5, _⟩ => ⟨S1x10, .f32⟩
  | .hbm, ⟨6, _⟩ => ⟨S10, .f32⟩
  | .hbm, ⟨7, _⟩ => ⟨S10x1, .f32⟩
  | .hbm, ⟨8, _⟩ => ⟨S10x1, .f32⟩
  | .hbm, ⟨9, _⟩ => ⟨S1, .f32⟩
  | .hbm, ⟨10, _⟩ => ⟨S_, .i32⟩
  | .hbm, ⟨11, _⟩ => ⟨S16000000, .i32⟩
  | .hbm, ⟨12, _⟩ => ⟨S16000000, .i1⟩
  | .hbm, ⟨13, _⟩ => ⟨S_, .i32⟩
  | .hbm, ⟨14, _⟩ => ⟨S16000000, .i32⟩
  | .hbm, ⟨15, _⟩ => ⟨S16000000, .i32⟩
  | .hbm, ⟨16, _⟩ => ⟨S16000000, .i32⟩
  | .hbm, ⟨17, _⟩ => ⟨S16000000x1, .i32⟩
  | .hbm, ⟨18, _⟩ => ⟨S16000000x1, .f32⟩
  | .hbm, ⟨19, _⟩ => ⟨S16000000x1, .f32⟩
  | .hbm, ⟨20, _⟩ => ⟨S_, .f32⟩
  | .hbm, ⟨21, _⟩ => ⟨S500000x1, .f32⟩
  | .hbm, ⟨22, _⟩ => ⟨S16000000x1, .i32⟩
  | .hbm, ⟨23, _⟩ => ⟨S500000x1, .f32⟩
  | .hbm, ⟨24, _⟩ => ⟨S_, .i32⟩
  | .hbm, ⟨25, _⟩ => ⟨S16000000x1, .i32⟩
  | .hbm, ⟨26, _⟩ => ⟨S_, .i32⟩
  | .hbm, ⟨27, _⟩ => ⟨S500000x1, .i32⟩
  | .hbm, ⟨28, _⟩ => ⟨S16000000x1, .i32⟩
  | .hbm, ⟨29, _⟩ => ⟨S500000x1, .i32⟩
  | .hbm, ⟨30, _⟩ => ⟨S500000x1, .f32⟩
  | .hbm, ⟨31, _⟩ => ⟨S1x10, .f32⟩
  | .hbm, ⟨32, _⟩ => ⟨S1x10, .f32⟩
  | .hbm, ⟨33, _⟩ => ⟨S1x10, .f32⟩
  | .hbm, ⟨34, _⟩ => ⟨S500000x1, .f32⟩
  | .hbm, ⟨35, _⟩ => ⟨S500000x1, .f32⟩
  | .hbm, ⟨36, _⟩ => ⟨S_, .i32⟩
  | .hbm, ⟨37, _⟩ => ⟨S16000000, .i32⟩
  | .hbm, ⟨38, _⟩ => ⟨S16000000, .i1⟩
  | .hbm, ⟨39, _⟩ => ⟨S_, .i32⟩
  | .hbm, ⟨40, _⟩ => ⟨S16000000, .i32⟩
  | .hbm, ⟨41, _⟩ => ⟨S16000000, .i32⟩
  | .hbm, ⟨42, _⟩ => ⟨S16000000, .i32⟩
  | .hbm, ⟨43, _⟩ => ⟨S16000000x1, .i32⟩
  | .hbm, ⟨44, _⟩ => ⟨S16000000x1, .f32⟩
  | .hbm, ⟨45, _⟩ => ⟨S16000000x1, .f32⟩
  | .hbm, ⟨46, _⟩ => ⟨S_, .f32⟩
  | .hbm, ⟨47, _⟩ => ⟨S500000x1, .f32⟩
  | .hbm, ⟨48, _⟩ => ⟨S16000000x1, .i32⟩
  | .hbm, ⟨49, _⟩ => ⟨S500000x1, .f32⟩
  | .hbm, ⟨50, _⟩ => ⟨S1x1, .f32⟩
  | .hbm, ⟨51, _⟩ => ⟨S500000x1, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S1x10, .f32⟩
  | .local _ .vmem, ⟨7, _⟩ => ⟨S1x10, .f32⟩
  | .local _ .vmem, ⟨8, _⟩ => ⟨S1x10, .f32⟩
  | .local _ .vmem, ⟨9, _⟩ => ⟨S1x10, .f32⟩
  | .local _ .vmem, ⟨10, _⟩ => ⟨S1x10, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S2000x1, .f32⟩
  | .local _ .vmem, ⟨21, _⟩ => ⟨S1x1, .f32⟩
  | .local _ .vmem, ⟨22, _⟩ => ⟨S2000x1, .f32⟩
  | .local _ .vmem, ⟨23, _⟩ => ⟨S2000x1, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_1 : Ref sig .tc := ⟨.hbm, 24, rfl⟩
abbrev main_call0_v11 : Ref sig .tc := ⟨.hbm, 25, rfl⟩
abbrev main_call0_c_2 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19_0 : Ref sig .tc := ⟨.hbm, 34, rfl⟩
abbrev main_call0_v19_1 : Ref sig .tc := ⟨.hbm, 35, rfl⟩
abbrev main_call0_c_3 : Ref sig .tc := ⟨.hbm, 36, rfl⟩
abbrev main_call0_v20 : Ref sig .tc := ⟨.hbm, 37, rfl⟩
abbrev main_call0_v21 : Ref sig .tc := ⟨.hbm, 38, rfl⟩
abbrev main_call0_c_4 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_cst_5 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_v0 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x1 : S_.BroadcastsInDim S500000x1 (![] : Fin 0 → Fin S500000x1.rank)
  bcast_S_S16000000x1 : S_.BroadcastsInDim S16000000x1 (![] : Fin 0 → Fin S16000000x1.rank)
  shapeCasts_S10_S1x10 : S10.ShapeCasts S1x10
  transposes_S10x1_S1x10_1_0 : S10x1.Transposes [1, 0] S1x10
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  broadcasts_S2000x1_S2000x10 : S2000x1.Broadcasts S2000x10
  reduces_S2000x10_S2000 : S2000x10.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S500000x1.size a
  hwx0_0 : ∀ i : grid0.Coords, EltTy.bits .f32 = 32 ∨ (Rect.block (s := S500000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .f32 = 32 ∨ (Rect.block (s := S500000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S500000x1.size a
  hwx0_2 : ∀ i : grid0.Coords, EltTy.bits .f32 = 32 ∨ (Rect.block (s := S500000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S500000x1.size a
  hwx0_8 : ∀ i : grid0.Coords, EltTy.bits .f32 = 32 ∨ (Rect.block (s := S500000x1) S2000x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S500000x1.size a
  hwx0_9 : ∀ i : grid0.Coords, EltTy.bits .f32 = 32 ∨ (Rect.block (s := S500000x1) S2000x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S500000x1.size a
  hwx1_0 : ∀ i : grid1.Coords, EltTy.bits .f32 = 32 ∨ (Rect.block (s := S500000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S500000x1.size a
  hwx1_1 : ∀ i : grid1.Coords, EltTy.bits .f32 = 32 ∨ (Rect.block (s := S500000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S500000x1.size a
  hwx1_2 : ∀ i : grid1.Coords, EltTy.bits .f32 = 32 ∨ (Rect.block (s := S500000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S500000x1.size a
  hwx1_4 : ∀ i : grid1.Coords, EltTy.bits .f32 = 32 ∨ (Rect.block (s := S500000x1) S2000x1.size (cc1_transform_4 i) (hinb1_4 i)).WholeWords (EltTy.packing .f32)

variable [Facts₀]

def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v16) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v17) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v18) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v19_0) S2000x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v19_1) S2000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_call0_v19_0) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v30) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v31) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S2000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S500000x1 : Shape := ⟨2, ![500000, 1]⟩
abbrev S16000000x1 : Shape := ⟨2, ![16000000, 1]⟩
abbrev S16000000 : Shape := ⟨1, ![16000000]⟩
abbrev S1x10 : Shape := ⟨2, ![1, 10]⟩
abbrev S10 : Shape := ⟨1, ![10]⟩
abbrev S10x1 : Shape := ⟨2, ![10, 1]⟩
abbrev S1 : Shape := ⟨1, ![1]⟩
abbrev S_ : Shape := ⟨0, ![]⟩
abbrev S500000x10 : Shape := ⟨2, ![500000, 10]⟩
abbrev S16000000x10 : Shape := ⟨2, ![16000000, 10]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S500000x1, .f32⟩
  | .hbm, ⟨1, _⟩ => ⟨S16000000x1, .f32⟩
  | .hbm, ⟨2, _⟩ => ⟨S16000000, .i32⟩
  | .hbm, ⟨3, _⟩ => ⟨S16000000, .i32⟩
  | .hbm, ⟨4, _⟩ => ⟨S1x10, .f32⟩
  | .hbm, ⟨5, _⟩ => ⟨S1x10, .f32⟩
  | .hbm, ⟨6, _⟩ => ⟨S10, .f32⟩
  | .hbm, ⟨7, _⟩ => ⟨S10x1, .f32⟩
  | .hbm, ⟨8, _⟩ => ⟨S10x1, .f32⟩
  | .hbm, ⟨9, _⟩ => ⟨S1, .f32⟩
  | .hbm, ⟨10, _⟩ => ⟨S_, .i32⟩
  | .hbm, ⟨11, _⟩ => ⟨S16000000, .i32⟩
  | .hbm, ⟨12, _⟩ => ⟨S16000000, .i1⟩
  | .hbm, ⟨13, _⟩ => ⟨S_, .i32⟩
  | .hbm, ⟨14, _⟩ => ⟨S16000000, .i32⟩
  | .hbm, ⟨15, _⟩ => ⟨S16000000, .i32⟩
  | .hbm, ⟨16, _⟩ => ⟨S16000000, .i32⟩
  | .hbm, ⟨17, _⟩ => ⟨S16000000x1, .i32⟩
  | .hbm, ⟨18, _⟩ => ⟨S16000000x1, .f32⟩
  | .hbm, ⟨19, _⟩ => ⟨S16000000x1, .f32⟩
  | .hbm, ⟨20, _⟩ => ⟨S_, .f32⟩
  | .hbm, ⟨21, _⟩ => ⟨S500000x1, .f32⟩
  | .hbm, ⟨22, _⟩ => ⟨S16000000x1, .i32⟩
  | .hbm, ⟨23, _⟩ => ⟨S500000x1, .f32⟩
  | .hbm, ⟨24, _⟩ => ⟨S_, .f32⟩
  | .hbm, ⟨25, _⟩ => ⟨S16000000x1, .f32⟩
  | .hbm, ⟨26, _⟩ => ⟨S_, .f32⟩
  | .hbm, ⟨27, _⟩ => ⟨S500000x1, .f32⟩
  | .hbm, ⟨28, _⟩ => ⟨S16000000x1, .i32⟩
  | .hbm, ⟨29, _⟩ => ⟨S500000x1, .f32⟩
  | .hbm, ⟨30, _⟩ => ⟨S_, .f32⟩
  | .hbm, ⟨31, _⟩ => ⟨S500000x1, .f32⟩
  | .hbm, ⟨32, _⟩ => ⟨S500000x1, .i1⟩
  | .hbm, ⟨33, _⟩ => ⟨S_, .f32⟩
  | .hbm, ⟨34, _⟩ => ⟨S500000x1, .f32⟩
  | .hbm, ⟨35, _⟩ => ⟨S500000x1, .f32⟩
  | .hbm, ⟨36, _⟩ => ⟨S500000x1, .f32⟩
  | .hbm, ⟨37, _⟩ => ⟨S_, .f32⟩
  | .hbm, ⟨38, _⟩ => ⟨S_, .f32⟩
  | .hbm, ⟨39, _⟩ => ⟨S500000x1, .f32⟩
  | .hbm, ⟨40, _⟩ => ⟨S500000x1, .f32⟩
  | .hbm, ⟨41, _⟩ => ⟨S500000x10, .f32⟩
  | .hbm, ⟨42, _⟩ => ⟨S500000x10, .f32⟩
  | .hbm, ⟨43, _⟩ => ⟨S500000x10, .f32⟩
  | .hbm, ⟨44, _⟩ => ⟨S1x10, .f32⟩
  | .hbm, ⟨45, _⟩ => ⟨S500000x10, .f32⟩
  | .hbm, ⟨46, _⟩ => ⟨S500000x10, .f32⟩
  | .hbm, ⟨47, _⟩ => ⟨S500000x10, .f32⟩
  | .hbm, ⟨48, _⟩ => ⟨S500000x10, .f32⟩
  | .hbm, ⟨49, _⟩ => ⟨S_, .f32⟩
  | .hbm, ⟨50, _⟩ => ⟨S500000x10, .f32⟩
  | .hbm, ⟨51, _⟩ => ⟨S500000x10, .f32⟩
  | .hbm, ⟨52, _⟩ => ⟨S_, .f32⟩
  | .hbm, ⟨53, _⟩ => ⟨S500000x10, .f32⟩
  | .hbm, ⟨54, _⟩ => ⟨S500000x10, .f32⟩
  | .hbm, ⟨55, _⟩ => ⟨S_, .i32⟩
  | .hbm, ⟨56, _⟩ => ⟨S16000000, .i32⟩
  | .hbm, ⟨57, _⟩ => ⟨S16000000, .i1⟩
  | .hbm, ⟨58, _⟩ => ⟨S_, .i32⟩
  | .hbm, ⟨59, _⟩ => ⟨S16000000, .i32⟩
  | .hbm, ⟨60, _⟩ => ⟨S16000000, .i32⟩
  | .hbm, ⟨61, _⟩ => ⟨S16000000, .i32⟩
  | .hbm, ⟨62, _⟩ => ⟨S16000000x1, .i32⟩
  | .hbm, ⟨63, _⟩ => ⟨S16000000x10, .f32⟩
  | .hbm, ⟨64, _⟩ => ⟨S16000000x10, .f32⟩
  | .hbm, ⟨65, _⟩ => ⟨S16000000x10, .f32⟩
  | .hbm, ⟨66, _⟩ => ⟨S_, .f32⟩
  | .hbm, ⟨67, _⟩ => ⟨S500000x10, .f32⟩
  | .hbm, ⟨68, _⟩ => ⟨S16000000x1, .i32⟩
  | .hbm, ⟨69, _⟩ => ⟨S500000x10, .f32⟩
  | .hbm, ⟨70, _⟩ => ⟨S_, .f32⟩
  | .hbm, ⟨71, _⟩ => ⟨S16000000x1, .f32⟩
  | .hbm, ⟨72, _⟩ => ⟨S_, .f32⟩
  | .hbm, ⟨73, _⟩ => ⟨S500000x1, .f32⟩
  | .hbm, ⟨74, _⟩ => ⟨S16000000x1, .i32⟩
  | .hbm, ⟨75, _⟩ => ⟨S500000x1, .f32⟩
  | .hbm, ⟨76, _⟩ => ⟨S_, .f32⟩
  | .hbm, ⟨77, _⟩ => ⟨S500000x1, .f32⟩
  | .hbm, ⟨78, _⟩ => ⟨S500000x1, .i1⟩
  | .hbm, ⟨79, _⟩ => ⟨S_, .f32⟩
  | .hbm, ⟨80, _⟩ => ⟨S500000x1, .f32⟩
  | .hbm, ⟨81, _⟩ => ⟨S500000x1, .f32⟩
  | .hbm, ⟨82, _⟩ => ⟨S500000x10, .f32⟩
  | .hbm, ⟨83, _⟩ => ⟨S500000x10, .f32⟩
  | .hbm, ⟨84, _⟩ => ⟨S_, .f32⟩
  | .hbm, ⟨85, _⟩ => ⟨S_, .f32⟩
  | .hbm, ⟨86, _⟩ => ⟨S500000x10, .i1⟩
  | .hbm, ⟨87, _⟩ => ⟨S500000x10, .f32⟩
  | .hbm, ⟨88, _⟩ => ⟨S500000x10, .f32⟩
  | .hbm, ⟨89, _⟩ => ⟨S500000x1, .f32⟩
  | .hbm, ⟨90, _⟩ => ⟨S500000x1, .f32⟩
  | .hbm, ⟨91, _⟩ => ⟨S500000x1, .f32⟩
  | .hbm, ⟨92, _⟩ => ⟨S1x1, .f32⟩
  | .hbm, ⟨93, _⟩ => ⟨S500000x1, .f32⟩
  | .hbm, ⟨94, _⟩ => ⟨S500000x1, .f32⟩
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x1 : S_.BroadcastsInDim S500000x1 (![] : Fin 0 → Fin S500000x1.rank)
  bcast_S_S16000000x1 : S_.BroadcastsInDim S16000000x1 (![] : Fin 0 → Fin S16000000x1.rank)
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  bcast_S_S500000x10 : S_.BroadcastsInDim S500000x10 (![] : Fin 0 → Fin S500000x10.rank)
  bcast_S16000000x1_S16000000x10_0_1 : S16000000x1.BroadcastsInDim S16000000x10 (![0, 1] : Fin 2 → Fin S16000000x10.rank)
  bcast_S500000x1_S500000x10_0_1 : S500000x1.BroadcastsInDim S500000x10 (![0, 1] : Fin 2 → Fin S500000x10.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1
  dot_S500000x1_S1x10_S500000x10_1_0_0_1_n_n_wf : DotDims.WF S500000x1 S1x10 S500000x10 [1] [0] [0] [1] [] []
  gather_S500000x10_S16000000x1_S16000000x10_1_0_n_n_0_1_110_wf : GatherDims.WF S500000x10 S16000000x1 S16000000x10 [1] [0] [] [0] [] 1 ![1, 10]
  scatter_S500000x10_S16000000x1_S16000000x10_1_0_0_1_wf : ScatterDims.WF S500000x10 S16000000x1 S16000000x10 [1] [0] [0] 1
  dot_S500000x10_S10x1_S500000x1_1_0_0_1_n_n_wf : DotDims.WF S500000x10 S10x1 S500000x1 [1] [0] [0] [1] [] []

variable [Facts₀]

def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf
def dot_S500000x1_S1x10_S500000x10_1_0_0_1_n_n : DotDims S500000x1 S1x10 S500000x10 where
  lhsContracting := [1]
  rhsContracting := [0]
  lhsNonContracting := [0]
  rhsNonContracting := [1]
  lhsBatch := []
  rhsBatch := []
  wf := dot_S500000x1_S1x10_S500000x10_1_0_0_1_n_n_wf
def gather_S500000x10_S16000000x1_S16000000x10_1_0_n_n_0_1_110 : GatherDims S500000x10 S16000000x1 S16000000x10 where
  offsetDims := [1]
  collapsedSliceDims := [0]
  operandBatchingDims := []
  startIndicesBatchingDims := []
  startIndexMap := [0]
  indexVectorDim := 1
  sliceSizes := ![1, 10]
  wf := gather_S500000x10_S16000000x1_S16000000x10_1_0_n_n_0_1_110_wf
def scatter_S500000x10_S16000000x1_S16000000x10_1_0_0_1 : ScatterDims S500000x10 S16000000x1 S16000000x10 where
  updateWindowDims := [1]
  insertedWindowDims := [0]
  scatterDimsToOperandDims := [0]
  indexVectorDim := 1
  wf := scatter_S500000x10_S16000000x1_S16000000x10_1_0_0_1_wf
def dot_S500000x10_S10x1_S500000x1_1_0_0_1_n_n : DotDims S500000x10 S10x1 S500000x1 where
  lhsContracting := [1]
  rhsContracting := [0]
  lhsNonContracting := [0]
  rhsNonContracting := [1]
  lhsBatch := []
  rhsBatch := []
  wf := dot_S500000x10_S10x1_S500000x1_1_0_0_1_n_n_wf

class Facts : Prop extends Facts₀ where

variable [Facts]
-- ==== Proof.Spec.lean ====
/-
  The mathematics of the two programs, over plain finite index types.

  A graph has 500000 nodes and 16000000 edges.  Edge e reads the node in row `row e` and is delivered to every node i
  with e ∈ A i (the in-edges of i).  One layer aggregates, at node i, the sum over the in-edges of (source feature ×
  edge weight), and divides it by the in-degree where that is positive (`mean`; a node without in-edges gets 0).
  Layer one maps the scalar feature and its aggregated mean to ten hidden units through a logistic; layer two maps
  the ten hidden units and their aggregated means to one output.

  The reference aggregates the ten hidden units edge by edge and then projects the ten means on the weights
  `w2n` (`outR`).  The kernel projects first — q = Σ_k s·w2n, one number per node — and aggregates that one number
  (`outK`).  The two agree because the mean is linear and the edge weight is a scalar per edge: Spec law, proved in
  another module.
-/
import Idealize.ShloMosaic.Lib.ValueIdx
import Idealize.ShloMosaic.PureOps.Ideal

noncomputable section

namespace Cert.Spec

open Idealize.ShloMosaic Idealize.ShloMosaic.ValueIdx

/-- The f32 words +0.0 and 1.0 as extended reals (kept as words: the same word stands on both sides). -/
abbrev zero32 : EReal := Ideal.ofBits .f32 0x00000000#32
abbrev one32 : EReal := Ideal.ofBits .f32 0x3F800000#32

/-- The mean over the in-edges: the aggregate `a` over the degree `d` where the degree is positive (the divisor is
    max d 1), and 0 where it is not. -/
def mean (d a : EReal) : EReal :=
  Scalar.select (Ideal.cmp .ogt d zero32) (Ideal.div a (max d one32)) zero32

/-- The in-degree of node i as an extended real: the number of its in-edges. -/
def deg {ι ν : Type} (A : ν → Finset ι) (i : ν) : EReal := (((A i).card : ℝ) : EReal)

section Layers

variable {ι ν : Type} (h : ν → EReal) (ef : ι → EReal) (row : ι → ν) (A : ν → Finset ι)
  (w1s w1n b1 w2s w2n : Fin 10 → EReal) (b2 : EReal)

/-- Layer one's aggregate at node i: Σ over in-edges of (source feature × edge weight). -/
def agg1 (i : ν) : EReal := ∑ e ∈ A i, h (row e) * ef e

/-- Hidden unit k of node i: logistic (h·w1s_k + mean·w1n_k + b1_k). -/
def s1 (i : ν) (k : Fin 10) : EReal :=
  Ideal.logistic (h i * w1s k + mean (deg A i) (agg1 h ef row A i) * w1n k + b1 k)

/-- The self term of layer two at node i: Σ_k s1_k · w2s_k. -/
def p1 (i : ν) : EReal := ∑ k : Fin 10, s1 h ef row A w1s w1n b1 i k * w2s k

/-- The hidden units of node i projected on the neighbour weights: Σ_k s1_k · w2n_k. -/
def q1 (i : ν) : EReal := ∑ k : Fin 10, s1 h ef row A w1s w1n b1 i k * w2n k

/-- The kernel's output at node i: the projected number q1 is aggregated over the in-edges and averaged. -/
def outK (i : ν) : EReal :=
  (p1 h ef row A w1s w1n b1 w2s i
    + mean (deg A i) (∑ e ∈ A i, q1 h ef row A w1s w1n b1 w2n (row e) * ef e)) + b2

/-- The reference's output at node i: each hidden unit is aggregated and averaged, then the ten means are projected. -/
def outR (i : ν) : EReal :=
  (p1 h ef row A w1s w1n b1 w2s i
    + ∑ k : Fin 10, mean (deg A i) (∑ e ∈ A i, s1 h ef row A w1s w1n b1 (row e) k * ef e) * w2n k) + b2

end Layers

/-! ## The graph as the programs read it off the two integer arrays -/

/-- A source index as both programs normalise it: a negative index counts from the end (+ 500000). -/
def srcNorm (src : (⟨1, ![16000000]⟩ : Shape).Idx → BitVec 32) (e : Fin 16000000) : BitVec 32 :=
  Scalar.select (IntOp.cmpi .slt (src (ix1 e)) 0#32) (IntOp.addi (src (ix1 e)) 500000#32) (src (ix1 e))

/-- The row edge e reads: the normalised source index read signed and clamped into the rows that exist. -/
def rowOf (src : (⟨1, ![16000000]⟩ : Shape).Idx → BitVec 32) (e : Fin 16000000) : Fin 500000 :=
  ⟨min (srcNorm src e).toInt.toNat (500000 - 1), by omega⟩

/-- The in-edges of node i: the edges whose destination index, read signed, is i (an index outside the nodes is
    delivered nowhere). -/
def edgesOf (dst : (⟨1, ![16000000]⟩ : Shape).Idx → BitVec 32) (i : Fin 500000) : Finset (Fin 16000000) :=
  Finset.univ.filter (fun e : Fin 16000000 => (dst (ix1 e)).toInt = (i.val : ℤ))

end Cert.Spec

end
-- ==== Proof.LibScatterRead.lean ====
/-
  Reading a scatter whose body returns the update ("set") at an index.

  `Host.scatter d (fun _ b => b) x idx upd` is a left fold of point updates over the update indices in row-major
  order.  At a result index that no update index lands on, the fold leaves the operand's element; at a result index
  that exactly one update index lands on, it leaves that update's element, wherever in the order it stands.
  The element type is arbitrary: the same two facts read a float array and a boolean mask.
-/
import Idealize.ShloMosaic.PureOps.ShapeOps

namespace Cert.LibScatterRead

open Idealize.ShloMosaic

variable {s si u : Shape} {w : Nat} {α : Type}

/-- One step of the fold: the point update of update number `n`. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the element at `i'`. -/
theorem step_miss (d : ScatterDims s si u) (idx : IVec si w) (upd : u.Idx → α) (r : s.Idx → α) (n : Fin u.numel)
    (i' : s.Idx) (h : d.resultIdx? (u.rowMajor.symm n) idx ≠ some i') : step d idx upd r n i' = r i' := by
  unfold step
  cases hr : d.resultIdx? (u.rowMajor.symm n) idx with
  | none => rfl
  | some i =>
    have hne : i' ≠ i := fun e => h (by rw [hr, e])
    simp only [if_neg hne]

/-- A step whose update lands at `i'` leaves the update's element there. -/
theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step
  rw [h]
  exact if_pos rfl

theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (step d idx upd) r i' = r i'
  | [], _, _ => rfl
  | a :: t, r, h => by
    rw [List.foldl_cons, foldl_miss d idx upd i' t _ (fun n hn => h n (List.mem_cons_of_mem _ hn)),
      step_miss d idx upd r a i' (h a List.mem_cons_self)]

theorem foldl_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (step d idx upd) r i' = upd (u.rowMajor.symm n0)
  | [], _, hm, _ => absurd hm List.not_mem_nil
  | a :: t, r, hm, hu => by
    rw [List.foldl_cons]
    by_cases ht : n0 ∈ t
    · exact foldl_hit d idx upd i' n0 h0 t _ ht (fun n hn => hu n (List.mem_cons_of_mem _ hn))
    · have ha : a = n0 := by
        rcases List.mem_cons.1 hm with e | e
        · exact e.symm
        · exact absurd e ht
      rw [foldl_miss d idx upd i' t _ (fun n hn e => ht (hu n (List.mem_cons_of_mem _ hn) e ▸ hn)), ha,
        step_hit d idx upd r n0 i' h0]

/-- At a result index no update lands on, the scatter leaves the operand's element. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x (fun n _ => h _)

/-- At a result index exactly one update index `j` lands on, the scatter leaves that update's element. -/
theorem scatter_set_hit (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  have := foldl_hit d idx upd i' (u.rowMajor j) h0 (List.finRange u.numel) x (List.mem_finRange _)
    (fun n _ e => by
      have := huniq _ e
      rw [← this, Equiv.apply_symm_apply])
  rw [this, Equiv.symm_apply_apply]

/-- Update index `j` lands at `i'` exactly when on every axis `i'` is the start plus the window coordinate. -/
theorem resultIdx?_eq_some_iff (d : ScatterDims s si u) (j : u.Idx) (idx : IVec si w) (i' : s.Idx) :
    d.resultIdx? j idx = some i' ↔ ∀ a, ((i' a).val : Int) = d.start j idx a + d.window j a := by
  unfold ScatterDims.resultIdx?
  split
  · rename_i h
    rw [Option.some.injEq]
    constructor
    · rintro rfl a
      have := (h a).1
      simp only [Int.toNat_of_nonneg this]
    · intro hi
      funext a
      apply Fin.ext
      have := hi a
      simp only
      omega
  · rename_i h
    constructor
    · intro hh; cases hh
    · intro hi
      exfalso
      apply h
      intro a
      have := hi a
      have := (i' a).isLt
      omega

end Cert.LibScatterRead
-- ==== Proof.LibScatterRows.lean ====
/-
  A scatter that adds whole rows, read at an index.

  The operand has rows i < N of C columns; the scatter indices are a column of n start rows; update row e is added to
  the operand's row at the e-th start index read as a signed integer, column by column, and dropped when that row does
  not exist.  So entry (i, k) of the result is the operand's entry plus the sum, over the update rows e whose start
  index is i, of the update's entry (e, k).  Stated for the exact float sum and for the integer fold.
-/
import Idealize.ShloMosaic.Lib.ValueIdx
import Idealize.ShloMosaic.PureOps.Ideal
import Idealize.ShloMosaic.PureOps.Contract
import Mathlib.Data.BitVec
import proofs.«402566_j21191368638621_3_alg».proof.Proof.LibScatterRead

noncomputable section

namespace Cert.ScatterRows

open Idealize.ShloMosaic Idealize.ShloMosaic.ValueIdx

variable {N C n w : Nat}

/-- Update entry (e, k) lands on operand entry (i, k') exactly when the e-th start index, read signed, is i and the
    columns agree.  The hypotheses are the printed dimension numbers, each by `rfl`. -/
theorem resultIdx?_rows2 (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k : Fin C) (i : Fin N) (k' : Fin C) :
    d.resultIdx? (ix2 e k) idx = some (ix2 i k') ↔ (idx (ix2 e (0 : Fin 1))).toInt = (i.val : ℤ) ∧ k = k' := by
  rw [Cert.LibScatterRead.resultIdx?_eq_some_iff]
  -- the operand's kept axis is its second; the update's scatter axis is its first
  have hsk : d.sKept = [1] := by
    show (List.finRange 2).filter (· ∉ d.insertedWindowDims) = _
    rw [hiw]; rfl
  have hus : d.uScatter = [0] := by
    show (List.finRange 2).filter (· ∉ d.updateWindowDims) = _
    rw [huw]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  -- the start index read for update row e is the column's entry at e
  have hsi : d.siIdx (ix2 e k) ⟨List.idxOf (0 : Fin 2) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 2, X ∈ d.uScatter → ((ix2 e k : (⟨2, ![n, C]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 2) d.scatterDimsToOperandDims = 0
      rw [hsd]; simp
  -- the row axis: start-indexed and inserted; the column axis: not start-indexed, the window's own coordinate
  have hs0 : d.start (ix2 e k) idx 0 = (idx (ix2 e (0 : Fin 1))).toInt := by
    unfold ScatterDims.start
    rw [dif_pos hm0, hsi]
  have hs1 : d.start (ix2 e k) idx 1 = 0 := by
    unfold ScatterDims.start
    rw [dif_neg hm1]
  have hw0 : d.window (ix2 e k) 0 = 0 := by
    unfold ScatterDims.window
    rw [dif_neg hk0]
  have hw1 : d.window (ix2 e k) 1 = k.val := by
    unfold ScatterDims.window
    rw [dif_pos hk1]
    have e' : ∀ X : Fin 2, X ∈ d.updateWindowDims → ((ix2 e k : (⟨2, ![n, C]⟩ : Shape).Idx) X).val = k.val := fun X hX => by
      rw [huw] at hX
      obtain rfl := List.mem_singleton.mp hX
      rfl
    exact e' _ (List.getElem_mem _)
  have hi0 : (((ix2 i k' : (⟨2, ![N, C]⟩ : Shape).Idx) 0).val : Int) = (i.val : Int) := rfl
  have hi1 : (((ix2 i k' : (⟨2, ![N, C]⟩ : Shape).Idx) 1).val : Int) = (k'.val : Int) := rfl
  constructor
  · intro h
    have h0 := h 0
    have h1 := h 1
    rw [hs0, hw0, hi0] at h0
    rw [hs1, hw1, hi1] at h1
    refine ⟨by omega, Fin.ext (by omega)⟩
  · rintro ⟨h0, rfl⟩ a
    match a with
    | ⟨0, _⟩ =>
      show (((ix2 i k : (⟨2, ![N, C]⟩ : Shape).Idx) 0).val : Int) = d.start (ix2 e k) idx 0 + d.window (ix2 e k) 0
      rw [hs0, hw0, hi0, h0]; simp
    | ⟨1, _⟩ =>
      show (((ix2 i k : (⟨2, ![N, C]⟩ : Shape).Idx) 1).val : Int) = d.start (ix2 e k) idx 1 + d.window (ix2 e k) 1
      rw [hs1, hw1, hi1]; simp

/-- The update indices that land on operand entry (i, k) are the (e, k) whose start index is i, so a sum over them
    is a sum over those rows e. -/
theorem sum_landing_rows2 {M : Type} [AddCommMonoid M] (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (upd : (⟨2, ![n, C]⟩ : Shape).Idx → M)
    (i : Fin N) (k : Fin C) :
    ∑ j ∈ Finset.univ.filter (fun j => d.resultIdx? j idx = some (ix2 i k)), upd j
      = ∑ e ∈ Finset.univ.filter (fun e : Fin n => (idx (ix2 e (0 : Fin 1))).toInt = (i.val : ℤ)),
          upd (ix2 e k) := by
  symm
  refine Finset.sum_bij (fun e _ => ix2 e k) ?_ ?_ ?_ ?_
  · intro e he
    rw [Finset.mem_filter] at he ⊢
    exact ⟨Finset.mem_univ _, (resultIdx?_rows2 d huw hiw hsd hivd idx e k i k).2 ⟨he.2, rfl⟩⟩
  · intro e1 _ e2 _ h
    exact congrFun h 0
  · intro j hj
    rw [Finset.mem_filter] at hj
    have hj2 := hj.2
    rw [eq_ix2 j] at hj2
    obtain ⟨h0, h1⟩ := (resultIdx?_rows2 d huw hiw hsd hivd idx (j 0) (j 1) i k).1 hj2
    refine ⟨j 0, ?_, ?_⟩
    · exact Finset.mem_filter.2 ⟨Finset.mem_univ _, h0⟩
    · rw [← h1]; exact (eq_ix2 j).symm
  · intro e _; rfl

/-- A scatter whose body adds, in a commutative monoid, read at one result index: the operand's element plus the sum
    of the update elements that land there.  The fold visits the update indices in row-major order, each exactly
    once, and the order does not matter to the sum. -/
theorem scatter_add_eq {M : Type} [AddCommMonoid M] {s si u : Shape} (d : ScatterDims s si u) (x : s.Idx → M)
    (idx : IVec si w) (upd : u.Idx → M) (i' : s.Idx) :
    Host.scatter d (fun a b => a + b) x idx upd i'
      = x i' + ∑ j ∈ Finset.univ.filter (fun j => d.resultIdx? j idx = some i'), upd j := by
  have hfold : ∀ (l : List (Fin u.numel)) (r : s.Idx → M),
      l.foldl (fun r n =>
          match d.resultIdx? (u.rowMajor.symm n) idx with
          | some i => fun i' => if i' = i then r i + upd (u.rowMajor.symm n) else r i'
          | none => r) r i'
        = r i' + (l.map fun n =>
            if d.resultIdx? (u.rowMajor.symm n) idx = some i' then upd (u.rowMajor.symm n) else 0).sum := by
    intro l
    induction l with
    | nil => intro r; simp
    | cons a t ih =>
      intro r
      rw [List.foldl_cons, ih, List.map_cons, List.sum_cons]
      cases hr : d.resultIdx? (u.rowMajor.symm a) idx with
      | none => simp
      | some i =>
        by_cases hi : i = i'
        · subst hi; simp [add_assoc]
        · have hi' : i' ≠ i := fun e => hi e.symm
          simp [hi, hi']
  refine (hfold (List.finRange u.numel) x).trans ?_
  rw [← Fin.sum_univ_def, Finset.sum_filter]
  congr 1
  exact Equiv.sum_comp u.rowMajor.symm (fun j => if d.resultIdx? j idx = some i' then upd j else 0)

/-- The exact float scatter-add of rows at entry (i, k). -/
theorem scatterAdd_rows2 {φ : FTy} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (i : Fin N) (k : Fin C) :
    Host.scatterAdd d x idx upd (ix2 i k)
      = x (ix2 i k) + ∑ e ∈ Finset.univ.filter (fun e : Fin n => (idx (ix2 e (0 : Fin 1))).toInt = (i.val : ℤ)),
          upd (ix2 e k) := by
  show Ideal.hostScatterAdd d x idx upd (ix2 i k) = _
  unfold Ideal.hostScatterAdd
  rw [sum_landing_rows2 d huw hiw hsd hivd idx upd i k]

/-- The integer scatter-add of rows (the fold of wrapping additions in row-major order) at entry (i, k). -/
theorem scatter_addi_rows2 {v : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : IVec ⟨2, ![N, C]⟩ v) (idx : IVec ⟨2, ![n, 1]⟩ w)
    (upd : IVec ⟨2, ![n, C]⟩ v) (i : Fin N) (k : Fin C) :
    Host.scatter d IntOp.addi x idx upd (ix2 i k)
      = x (ix2 i k) + ∑ e ∈ Finset.univ.filter (fun e : Fin n => (idx (ix2 e (0 : Fin 1))).toInt = (i.val : ℤ)),
          upd (ix2 e k) := by
  show Host.scatter d (fun a b => a + b) x idx upd (ix2 i k) = _
  rw [scatter_add_eq, sum_landing_rows2 d huw hiw hsd hivd idx upd i k]

/-- Counting in 32-bit words does not wrap below 2^31: the sum of s.card ones over zero, read signed, is s.card. -/
theorem toInt_count (hn : n < 2 ^ 31) (s : Finset (Fin n)) :
    (0#32 + ∑ _e ∈ s, (1#32 : BitVec 32)).toInt = (s.card : ℤ) := by
  have hc : s.card ≤ n := by
    have := Finset.card_le_univ s
    rwa [Fintype.card_fin] at this
  have hsum : (0#32 + ∑ _e ∈ s, (1#32 : BitVec 32)) = BitVec.ofNat 32 s.card := by
    rw [Finset.sum_const, nsmul_eq_mul, BitVec.natCast_eq_ofNat]
    simp
  rw [hsum, BitVec.toInt_eq_toNat_of_lt, BitVec.toNat_ofNat, Nat.mod_eq_of_lt (by omega)]
  rw [BitVec.toNat_ofNat, Nat.mod_eq_of_lt (by omega)]
  omega

end Cert.ScatterRows

end
-- ==== Proof.LibGatherRows.lean ====
/-
  A `stablehlo.gather` that takes whole rows: what `x[idx]` lowers to when `x` has two or three axes and `idx` is a
  list of positions on the first.  The start indices are the list as an [n × 1] column; the operand's first axis is
  collapsed and start-indexed, its other axes are offset axes taken whole.  Result row `j` is the operand's row at
  the `j`-th start index read as a signed integer and clamped into the rows that exist (StableHLO's clamp): a negative
  index reads row 0, one past the end reads the last row.
-/
import Idealize.ShloMosaic.Lib.ValueIdx

noncomputable section

namespace Cert.GatherRows

open Idealize.ShloMosaic Idealize.ShloMosaic.ValueIdx

/-- Rows of a matrix: `[N, C]` at `[n, 1]` start indices gives `[n, C]`; entry `(j, k)` is the operand's at
    (clamped start index `j`, `k`).  The hypotheses are the printed dimension numbers, each by `rfl`. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil
  -- the result's one batch axis is its first
  have hbd : d.batchDims = [0] := by
    show (List.finRange 2).filter (· ∉ d.offsetDims) = _
    rw [hoff]; rfl
  match a with
  | ⟨0, _⟩ =>
    -- the row axis: collapsed and start-indexed, so no offset or batching part, a slice of one row, and the start
    -- index clamped into the rows; the start index read is the column's entry at the result's row
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: an offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

/-- Rows of a stack of matrices: `[N, L, C]` at `[n, 1]` start indices gives `[n, L, C]`; entry `(j, l, k)` is the
    operand's at (clamped start index `j`, `l`, `k`). -/
theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil
  -- the result's one batch axis is its first; the operand's kept axes are its second and third
  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl
  -- an operand axis that is kept and not start-indexed reads the result's coordinate on the offset axis in its position
  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>
    -- the row axis: collapsed and start-indexed, so no offset or batching part, a slice of one row, and the start
    -- index clamped into the rows; the start index read is the column's entry at the result's row
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>
    -- the second axis: the first of the two offset axes
    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>
    -- the third axis: the second of the two offset axes
    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.RefValue.lean ====
/-
  The reference's result, read at a node, is the formula `Spec.outR` of the ten inputs.

  The reference gathers the source rows, multiplies by the edge weights, scatter-adds into the destination rows,
  divides by the degree (a scatter-add of ones) where it is positive, and runs the two layers with matrix products
  whose contracted axes have extents 1 and 10.
-/
import proofs.«402566_j21191368638621_3_alg».proof.Proof.RefRead
import proofs.«402566_j21191368638621_3_alg».proof.Proof.Spec
import proofs.«402566_j21191368638621_3_alg».proof.Proof.LibScatterRows
import proofs.«402566_j21191368638621_3_alg».proof.Proof.LibGatherRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.RefValue

open Idealize.ShloMosaic Idealize.ShloMosaic.TcCoe Idealize.ShloMosaic.ValueIdx
open Cert.ReferenceIdeal Cert.ReferenceIdeal.Gen Cert.ReferenceIdeal.ReadP

/-! ## Constants and index equations -/

/-- The word 1.0 denotes the extended real 1. -/
theorem one_word : Ideal.ofBits .f32 0x3F800000#32 = 1 := by
  simp [Ideal.ofBits, Ideal.ieee, -EReal.coe_mul]; norm_num

/-- A column index (e, 0) of the edge list read through the broadcast of a vector is the vector's index e. -/
theorem col_v5 (e : Fin 16000000) : idx_main_v5 (ix2 e (0 : Fin 1)) = ix1 e := by
  funext a; match a with | ⟨0, _⟩ => rfl
theorem col_v9 (e : Fin 16000000) : idx_main_v9 (ix2 e (0 : Fin 1)) = ix1 e := by
  funext a; match a with | ⟨0, _⟩ => rfl
theorem col_v13 (e : Fin 16000000) : idx_main_v13 (ix2 e (0 : Fin 1)) = ix1 e := by
  funext a; match a with | ⟨0, _⟩ => rfl
theorem col_v38 (e : Fin 16000000) : idx_main_v38 (ix2 e (0 : Fin 1)) = ix1 e := by
  funext a; match a with | ⟨0, _⟩ => rfl
theorem col_v43 (e : Fin 16000000) : idx_main_v43 (ix2 e (0 : Fin 1)) = ix1 e := by
  funext a; match a with | ⟨0, _⟩ => rfl
theorem col_v47 (e : Fin 16000000) : idx_main_v47 (ix2 e (0 : Fin 1)) = ix1 e := by
  funext a; match a with | ⟨0, _⟩ => rfl

/-! ## The degree: a scatter-add of ones over zero -/

/-- The first degree stage at node i is the number of in-edges of i. -/
theorem deg_v14 (x3 : IVec S16000000 32) (i : Fin 500000) :
    val_main_v14 (F := Ideal) x3 (ix2 i (0 : Fin 1)) = Cert.Spec.deg (Cert.Spec.edgesOf x3) i := by
  unfold val_main_v14
  rw [Cert.ScatterRows.scatterAdd_rows2 (φ := .f32) scatter_S500000x1_S16000000x1_S16000000x1_1_0_0_1 rfl rfl rfl rfl]
  simp only [val_main_v12_apply, val_main_cst_2_apply, val_main_v11_apply, val_main_cst_1_apply, val_main_v13_apply,
    col_v13, Ideal.ofBits_def, Ideal.ofBits_zero_f32, one_word, zero_add, Finset.sum_const, nsmul_one]
  unfold Cert.Spec.deg Cert.Spec.edgesOf
  rw [EReal.coe_natCast]

/-- The second degree stage is the same scatter-add. -/
theorem deg_v48 (x3 : IVec S16000000 32) (i : Fin 500000) :
    val_main_v48 (F := Ideal) x3 (ix2 i (0 : Fin 1)) = Cert.Spec.deg (Cert.Spec.edgesOf x3) i := by
  unfold val_main_v48
  rw [Cert.ScatterRows.scatterAdd_rows2 (φ := .f32) scatter_S500000x1_S16000000x1_S16000000x1_1_0_0_1 rfl rfl rfl rfl]
  simp only [val_main_v46_apply, val_main_cst_12_apply, val_main_v45_apply, val_main_cst_11_apply, val_main_v47_apply,
    col_v47, Ideal.ofBits_def, Ideal.ofBits_zero_f32, one_word, zero_add, Finset.sum_const, nsmul_one]
  unfold Cert.Spec.deg Cert.Spec.edgesOf
  rw [EReal.coe_natCast]

/-! ## The source rows -/

/-- The first gather's start index for edge e is the normalised source index. -/
theorem src_v5 (x2 : IVec S16000000 32) (e : Fin 16000000) :
    val_main_v5 (F := Ideal) x2 (ix2 e (0 : Fin 1)) = Cert.Spec.srcNorm x2 e := by
  rw [val_main_v5_apply, col_v5, val_main_v4_apply, val_main_v1_apply, val_main_v3_apply, val_main_v0_apply,
    val_main_v2_apply, val_main_c_apply, val_main_c_0_apply]
  rfl

/-- The second gather's start index likewise. -/
theorem src_v38 (x2 : IVec S16000000 32) (e : Fin 16000000) :
    val_main_v38 (F := Ideal) x2 (ix2 e (0 : Fin 1)) = Cert.Spec.srcNorm x2 e := by
  rw [val_main_v38_apply, col_v38, val_main_v37_apply, val_main_v34_apply, val_main_v36_apply, val_main_v33_apply,
    val_main_v35_apply, val_main_c_8_apply, val_main_c_9_apply]
  rfl

/-- The first gather at edge e reads the feature of the edge's source row. -/
theorem gather_v6 (x0 : FVec Ideal S500000x1 .f32) (x2 : IVec S16000000 32) (e : Fin 16000000) :
    val_main_v6 (F := Ideal) x0 x2 (ix2 e (0 : Fin 1)) = x0 (ix2 (Cert.Spec.rowOf x2 e) (0 : Fin 1)) := by
  unfold val_main_v6
  rw [Cert.GatherRows.gather_rows2 (by omega) gather_S500000x1_S16000000x1_S16000000x1_1_0_n_n_0_1_11 rfl rfl rfl rfl rfl]
  simp only [src_v5]
  rfl

/-! ## Layer one -/

/-- Layer one's aggregate: the scatter-add of (source feature × edge weight) over zero. -/
theorem agg_v10 (x0 : FVec Ideal S500000x1 .f32) (x1 : FVec Ideal S16000000x1 .f32) (x2 x3 : IVec S16000000 32) (i : Fin 500000) :
    val_main_v10 (F := Ideal) x0 x1 x2 x3 (ix2 i (0 : Fin 1))
      = Cert.Spec.agg1 (fun n : Fin 500000 => x0 (ix2 n (0 : Fin 1))) (fun e : Fin 16000000 => x1 (ix2 e (0 : Fin 1)))
          (Cert.Spec.rowOf x2) (Cert.Spec.edgesOf x3) i := by
  unfold val_main_v10
  rw [Cert.ScatterRows.scatterAdd_rows2 (φ := .f32) scatter_S500000x1_S16000000x1_S16000000x1_1_0_0_1 rfl rfl rfl rfl]
  simp only [val_main_v8_apply, val_main_cst_apply, val_main_v9_apply, col_v9, val_main_v7_apply, gather_v6,
    Ideal.ofBits_def, Ideal.ofBits_zero_f32, zero_add, Ideal.mulf_def]
  unfold Cert.Spec.agg1 Cert.Spec.edgesOf
  rfl

/-- The first `where`: the aggregate over the degree where the degree is positive. -/
theorem mean_v20 (x0 : FVec Ideal S500000x1 .f32) (x1 : FVec Ideal S16000000x1 .f32) (x2 x3 : IVec S16000000 32) (i : Fin 500000) :
    val_main_v20 (F := Ideal) x0 x1 x2 x3 (ix2 i (0 : Fin 1))
      = Cert.Spec.mean (Cert.Spec.deg (Cert.Spec.edgesOf x3) i) (Cert.Spec.agg1 (fun n : Fin 500000 => x0 (ix2 n (0 : Fin 1))) (fun e : Fin 16000000 => x1 (ix2 e (0 : Fin 1)))
          (Cert.Spec.rowOf x2) (Cert.Spec.edgesOf x3) i) := by
  rw [val_main_v20_apply, val_main_v16_apply, val_main_v19_apply, val_main_v18_apply, val_main_call0_v1_apply,
    val_main_call0_v0_apply, val_main_cst_5_apply, val_main_v15_apply, val_main_cst_3_apply, val_main_v17_apply,
    val_main_cst_4_apply, deg_v14, agg_v10]
  rfl

/-- The index equations of the two matrix products of layer one (the contracted axis has extent 1) and of the bias. -/
theorem lidx21 (i : Fin 500000) (k : Fin 10) : lidx_main_v21 (ix2 i k) (0 : Fin 1) = ix2 i (0 : Fin 1) := by
  funext a; match a with | ⟨0, _⟩ => rfl | ⟨1, _⟩ => rfl
theorem ridx21 (i : Fin 500000) (k : Fin 10) : ridx_main_v21 (ix2 i k) (0 : Fin 1) = ix2 (0 : Fin 1) k := by
  funext a; match a with | ⟨0, _⟩ => rfl | ⟨1, _⟩ => rfl
theorem lidx22 (i : Fin 500000) (k : Fin 10) : lidx_main_v22 (ix2 i k) (0 : Fin 1) = ix2 i (0 : Fin 1) := by
  funext a; match a with | ⟨0, _⟩ => rfl | ⟨1, _⟩ => rfl
theorem ridx22 (i : Fin 500000) (k : Fin 10) : ridx_main_v22 (ix2 i k) (0 : Fin 1) = ix2 (0 : Fin 1) k := by
  funext a; match a with | ⟨0, _⟩ => rfl | ⟨1, _⟩ => rfl
theorem bias25 (i : Fin 500000) (k : Fin 10) : idx_main_v24 (idx_main_v25 (ix2 i k)) = ix1 k := by
  funext a; match a with | ⟨0, _⟩ => rfl

/-- Hidden unit k of node i: 1 / (1 + exp (-pre)) is the logistic of the pre-activation. -/
theorem hidden_v32 (x0 : FVec Ideal S500000x1 .f32) (x1 : FVec Ideal S16000000x1 .f32) (x2 x3 : IVec S16000000 32)
    (x4 x5 : FVec Ideal S1x10 .f32) (x6 : FVec Ideal S10 .f32) (i : Fin 500000) (k : Fin 10) :
    val_main_v32 (F := Ideal) x0 x1 x2 x3 x4 x5 x6 (ix2 i k)
      = Cert.Spec.s1 (fun n : Fin 500000 => x0 (ix2 n (0 : Fin 1))) (fun e : Fin 16000000 => x1 (ix2 e (0 : Fin 1)))
          (Cert.Spec.rowOf x2) (Cert.Spec.edgesOf x3)
          (fun k : Fin 10 => x4 (ix2 (0 : Fin 1) k)) (fun k : Fin 10 => x5 (ix2 (0 : Fin 1) k)) (fun k : Fin 10 => x6 (ix1 k)) i k := by
  rw [val_main_v32_apply, val_main_v31_apply, val_main_cst_7_apply, val_main_v30_apply, val_main_v29_apply,
    val_main_cst_6_apply, val_main_v28_apply, val_main_v27_apply, val_main_v26_apply, val_main_v23_apply,
    val_main_v21_apply, val_main_v22_apply, val_main_v25_apply, val_main_v24_apply, bias25, Fin.sum_univ_one,
    Fin.sum_univ_one, lidx21, ridx21, lidx22, ridx22, mean_v20, Ideal.ofBits_def, one_word]
  rfl

/-! ## Layer two -/

/-- The second gather at (e, k) reads hidden unit k of the edge's source row. -/
theorem gather_v39 (x0 : FVec Ideal S500000x1 .f32) (x1 : FVec Ideal S16000000x1 .f32) (x2 x3 : IVec S16000000 32)
    (x4 x5 : FVec Ideal S1x10 .f32) (x6 : FVec Ideal S10 .f32) (e : Fin 16000000) (k : Fin 10) :
    val_main_v39 (F := Ideal) x0 x1 x2 x3 x4 x5 x6 (ix2 e k)
      = Cert.Spec.s1 (fun n : Fin 500000 => x0 (ix2 n (0 : Fin 1))) (fun e : Fin 16000000 => x1 (ix2 e (0 : Fin 1)))
          (Cert.Spec.rowOf x2) (Cert.Spec.edgesOf x3)
          (fun k : Fin 10 => x4 (ix2 (0 : Fin 1) k)) (fun k : Fin 10 => x5 (ix2 (0 : Fin 1) k)) (fun k : Fin 10 => x6 (ix1 k)) (Cert.Spec.rowOf x2 e) k := by
  unfold val_main_v39
  rw [Cert.GatherRows.gather_rows2 (by omega) gather_S500000x10_S16000000x1_S16000000x10_1_0_n_n_0_1_110 rfl rfl rfl rfl rfl]
  simp only [src_v38]
  exact hidden_v32 x0 x1 x2 x3 x4 x5 x6 (Cert.Spec.rowOf x2 e) k

/-- The edge weight broadcast along the ten columns. -/
theorem col_v40 (e : Fin 16000000) (k : Fin 10) : idx_main_v40 (ix2 e k) = ix2 e (0 : Fin 1) := by
  funext a; match a with | ⟨0, _⟩ => rfl | ⟨1, _⟩ => rfl

/-- Layer two's aggregate of hidden unit k: the scatter-add of (source hidden unit × edge weight) over zero. -/
theorem agg_v44 (x0 : FVec Ideal S500000x1 .f32) (x1 : FVec Ideal S16000000x1 .f32) (x2 x3 : IVec S16000000 32)
    (x4 x5 : FVec Ideal S1x10 .f32) (x6 : FVec Ideal S10 .f32) (i : Fin 500000) (k : Fin 10) :
    val_main_v44 (F := Ideal) x0 x1 x2 x3 x4 x5 x6 (ix2 i k)
      = ∑ e ∈ Cert.Spec.edgesOf x3 i, Cert.Spec.s1 (fun n : Fin 500000 => x0 (ix2 n (0 : Fin 1))) (fun e : Fin 16000000 => x1 (ix2 e (0 : Fin 1)))
          (Cert.Spec.rowOf x2) (Cert.Spec.edgesOf x3)
          (fun k : Fin 10 => x4 (ix2 (0 : Fin 1) k)) (fun k : Fin 10 => x5 (ix2 (0 : Fin 1) k)) (fun k : Fin 10 => x6 (ix1 k)) (Cert.Spec.rowOf x2 e) k * x1 (ix2 e (0 : Fin 1)) := by
  unfold val_main_v44
  rw [Cert.ScatterRows.scatterAdd_rows2 (φ := .f32) scatter_S500000x10_S16000000x1_S16000000x10_1_0_0_1 rfl rfl rfl rfl]
  simp only [val_main_v42_apply, val_main_cst_10_apply, val_main_v43_apply, col_v43, val_main_v41_apply, gather_v39,
    val_main_v40_apply, col_v40, Ideal.ofBits_def, Ideal.ofBits_zero_f32, zero_add, Ideal.mulf_def]
  unfold Cert.Spec.edgesOf
  rfl

/-- The degree and the mask broadcast along the ten columns. -/
theorem col_v53 (i : Fin 500000) (k : Fin 10) : idx_main_v53 (ix2 i k) = ix2 i (0 : Fin 1) := by
  funext a; match a with | ⟨0, _⟩ => rfl | ⟨1, _⟩ => rfl
theorem col_call1 (i : Fin 500000) (k : Fin 10) : idx_main_call1_v1 (ix2 i k) = ix2 i (0 : Fin 1) := by
  funext a; match a with | ⟨0, _⟩ => rfl | ⟨1, _⟩ => rfl

/-- The second `where`: the aggregate of hidden unit k over the degree where the degree is positive. -/
theorem mean_v55 (x0 : FVec Ideal S500000x1 .f32) (x1 : FVec Ideal S16000000x1 .f32) (x2 x3 : IVec S16000000 32)
    (x4 x5 : FVec Ideal S1x10 .f32) (x6 : FVec Ideal S10 .f32) (i : Fin 500000) (k : Fin 10) :
    val_main_v55 (F := Ideal) x0 x1 x2 x3 x4 x5 x6 (ix2 i k)
      = Cert.Spec.mean (Cert.Spec.deg (Cert.Spec.edgesOf x3) i)
          (∑ e ∈ Cert.Spec.edgesOf x3 i, Cert.Spec.s1 (fun n : Fin 500000 => x0 (ix2 n (0 : Fin 1))) (fun e : Fin 16000000 => x1 (ix2 e (0 : Fin 1)))
          (Cert.Spec.rowOf x2) (Cert.Spec.edgesOf x3)
          (fun k : Fin 10 => x4 (ix2 (0 : Fin 1) k)) (fun k : Fin 10 => x5 (ix2 (0 : Fin 1) k)) (fun k : Fin 10 => x6 (ix1 k)) (Cert.Spec.rowOf x2 e) k * x1 (ix2 e (0 : Fin 1))) := by
  rw [val_main_v55_apply, val_main_call1_v1_apply, col_call1, val_main_v50_apply, val_main_v54_apply,
    val_main_v53_apply, col_v53, val_main_v52_apply, val_main_call1_v2_apply, val_main_call1_v0_apply,
    val_main_cst_15_apply, val_main_v49_apply, val_main_cst_13_apply, val_main_v51_apply, val_main_cst_14_apply,
    deg_v48, agg_v44]
  rfl

/-- The index equations of the two matrix products of layer two (the contracted axis has extent 10) and of the bias. -/
theorem lidx56 (i : Fin 500000) (k : Fin 10) : lidx_main_v56 (ix2 i (0 : Fin 1)) k = ix2 i k := by
  funext a; match a with | ⟨0, _⟩ => rfl | ⟨1, _⟩ => rfl
theorem ridx56 (i : Fin 500000) (k : Fin 10) : ridx_main_v56 (ix2 i (0 : Fin 1)) k = ix2 k (0 : Fin 1) := by
  funext a; match a with | ⟨0, _⟩ => rfl | ⟨1, _⟩ => rfl
theorem lidx57 (i : Fin 500000) (k : Fin 10) : lidx_main_v57 (ix2 i (0 : Fin 1)) k = ix2 i k := by
  funext a; match a with | ⟨0, _⟩ => rfl | ⟨1, _⟩ => rfl
theorem ridx57 (i : Fin 500000) (k : Fin 10) : ridx_main_v57 (ix2 i (0 : Fin 1)) k = ix2 k (0 : Fin 1) := by
  funext a; match a with | ⟨0, _⟩ => rfl | ⟨1, _⟩ => rfl
theorem bias60 (i : Fin 500000) : idx_main_v59 (idx_main_v60 (ix2 i (0 : Fin 1))) = ix1 (0 : Fin 1) := by
  funext a; match a with | ⟨0, _⟩ => rfl

/-- The reference's last stage at node i is `Spec.outR` of the inputs read entry by entry. -/
theorem ref_out (x0 : FVec Ideal S500000x1 .f32) (x1 : FVec Ideal S16000000x1 .f32) (x2 x3 : IVec S16000000 32)
    (x4 x5 : FVec Ideal S1x10 .f32) (x6 : FVec Ideal S10 .f32) (x7 x8 : FVec Ideal S10x1 .f32) (x9 : FVec Ideal S1 .f32)
    (i : Fin 500000) :
    val_main_v61 (F := Ideal) x0 x1 x2 x3 x4 x5 x6 x7 x8 x9 (ix2 i (0 : Fin 1))
      = Cert.Spec.outR (fun n : Fin 500000 => x0 (ix2 n (0 : Fin 1))) (fun e : Fin 16000000 => x1 (ix2 e (0 : Fin 1)))
          (Cert.Spec.rowOf x2) (Cert.Spec.edgesOf x3)
          (fun k : Fin 10 => x4 (ix2 (0 : Fin 1) k)) (fun k : Fin 10 => x5 (ix2 (0 : Fin 1) k)) (fun k : Fin 10 => x6 (ix1 k))
          (fun k : Fin 10 => x7 (ix2 k (0 : Fin 1))) (fun k : Fin 10 => x8 (ix2 k (0 : Fin 1))) (x9 (ix1 (0 : Fin 1))) i := by
  rw [val_main_v61_apply, val_main_v58_apply, val_main_v56_apply, val_main_v57_apply, val_main_v60_apply,
    val_main_v59_apply, bias60]
  simp only [lidx56, ridx56, lidx57, ridx57, hidden_v32, mean_v55]
  rfl

end Cert.RefValue

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.RegionValue.lean ====
/-
  What each of the kernel's two pipelined calls leaves in its output arrays, as whole-array functions of the arrays
  the call finds when it is entered.

  Both calls walk the 500000 rows in 250 blocks of 2000 rows; every operand with 500000 rows moves with the output,
  block for block, and the small weight rows are read whole at every point.  So the value the body stores at row p of
  block t depends only on row t·2000 + p of the long operands and on the weight rows: each output array is one
  function of its row, the same at every grid point, and the blocks cover the array.

  Call 0 (rows of layer one, folded with the two projections of layer two): with s_k the logistic of
  h·w1s_k + mean(deg, agg)·w1n_k + b1_k, output 8 is Σ_k s_k·w2s_k and output 9 is Σ_k s_k·w2n_k.
  Call 1 (the last step): the output is (p + mean(deg, agg)) + b2.
-/
import proofs.«402566_j21191368638621_3_alg».proof.Proof.Gen.KernelIdeal.Frame
import proofs.«402566_j21191368638621_3_alg».proof.Proof.Spec
import proofs.«402566_j21191368638621_3_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-! ## The three row functions -/

/-- Hidden unit k at a row, from the row's feature h, aggregate a, degree d and the three weight rows. -/
def unit (h a d : EReal) (w1s w1n b1 : S1x10.Idx → EReal) (k : Fin 10) : EReal :=
  Ideal.logistic (h * w1s (ix2 (0 : Fin 1) k) + Cert.Spec.mean d a * w1n (ix2 (0 : Fin 1) k) + b1 (ix2 (0 : Fin 1) k))

/-- The hidden units of row i projected on a weight row w: Σ_k unit_k · w_k. -/
def proj (a0 a1 a2 : S500000x1.Idx → EReal) (a3 a4 a5 w : S1x10.Idx → EReal) : S500000x1.Idx → EReal := fun i =>
  ∑ k : Fin 10, unit (a0 (ix2 (i 0) (0 : Fin 1))) (a1 (ix2 (i 0) (0 : Fin 1))) (a2 (ix2 (i 0) (0 : Fin 1))) a3 a4 a5 k
    * w (ix2 (0 : Fin 1) k)

/-- The last step at row i: (p + mean(deg, agg)) + b2. -/
def last (p a d : S500000x1.Idx → EReal) (b2 : S1x1.Idx → EReal) : S500000x1.Idx → EReal := fun i =>
  (p (ix2 (i 0) (0 : Fin 1)) + Cert.Spec.mean (d (ix2 (i 0) (0 : Fin 1))) (a (ix2 (i 0) (0 : Fin 1))))
    + b2 (ix2 (0 : Fin 1) (0 : Fin 1))

/-! ## The bodies' stored values at a row of the block -/

/-- The hidden units of call 0's body at (p, k). -/
theorem units_apply (x0 x1 x2 : Vec Ideal S2000x1 .f32) (x3 x4 x5 : Vec Ideal S1x10 .f32) (p : Fin 2000) (k : Fin 10) :
    k0_pay3 (F := Ideal) x0 x1 x2 x3 x4 x5 (ix2 p k)
      = unit (x0 (ix2 p (0 : Fin 1))) (x1 (ix2 p (0 : Fin 1))) (x2 (ix2 p (0 : Fin 1))) x3 x4 x5 k := by
  unfold k0_pay3
  simp only [shapeCast_self, logistic, addf, mulf, broadcastTo_1b_ab_apply, Columns.broadcastTo_a1_ab_apply]
  rfl

/-- Call 0's first store at row p: the units projected on the row loaded from window 6. -/
theorem store8_apply (x0 x1 x2 : Vec Ideal S2000x1 .f32) (x3 x4 x5 x6 : Vec Ideal S1x10 .f32) (p : Fin 2000) (q : Fin 1) :
    k0_pay1 (F := Ideal) (k0_pay5 (F := Ideal) x0 x1 x2 x3 x4 x5 x6) (ix2 p q)
      = ∑ k : Fin 10, unit (x0 (ix2 p (0 : Fin 1))) (x1 (ix2 p (0 : Fin 1))) (x2 (ix2 p (0 : Fin 1))) x3 x4 x5 k
          * x6 (ix2 (0 : Fin 1) k) := by
  unfold k0_pay1 k0_pay5
  simp only [shapeCast_self]
  rw [Columns.shapeCast_a_a1_apply]
  refine (Ideal.multiReduction_add_single _ _ _ _ _ (ix1 p)).trans ?_
  refine Finset.sum_congr rfl fun (k : Fin 10) _ => ?_
  have e : reduces_S2000x10_S2000.lift (ix1 p) k = ix2 p k :=
    funext fun a => Fin.ext (by match a with | ⟨0, _⟩ => rfl | ⟨1, _⟩ => rfl)
  rw [e]
  show k0_pay3 (F := Ideal) x0 x1 x2 x3 x4 x5 (ix2 p k) * broadcastTo S2000x10 x6 _ (ix2 p k) = _
  rw [units_apply, broadcastTo_1b_ab_apply]

/-- Call 0's second store at row p: the units projected on the row loaded from window 7. -/
theorem store9_apply (x0 x1 x2 : Vec Ideal S2000x1 .f32) (x3 x4 x5 x7 : Vec Ideal S1x10 .f32) (p : Fin 2000) (q : Fin 1) :
    k0_pay2 (F := Ideal) (k0_pay3 (F := Ideal) x0 x1 x2 x3 x4 x5) (k0_pay4 (F := Ideal) x7) (ix2 p q)
      = ∑ k : Fin 10, unit (x0 (ix2 p (0 : Fin 1))) (x1 (ix2 p (0 : Fin 1))) (x2 (ix2 p (0 : Fin 1))) x3 x4 x5 k
          * x7 (ix2 (0 : Fin 1) k) := by
  unfold k0_pay2 k0_pay4
  simp only [shapeCast_self]
  rw [Columns.shapeCast_a_a1_apply]
  refine (Ideal.multiReduction_add_single _ _ _ _ _ (ix1 p)).trans ?_
  refine Finset.sum_congr rfl fun (k : Fin 10) _ => ?_
  have e : reduces_S2000x10_S2000.lift (ix1 p) k = ix2 p k :=
    funext fun a => Fin.ext (by match a with | ⟨0, _⟩ => rfl | ⟨1, _⟩ => rfl)
  rw [e]
  show k0_pay3 (F := Ideal) x0 x1 x2 x3 x4 x5 (ix2 p k) * broadcastTo S2000x10 x7 _ (ix2 p k) = _
  rw [units_apply, broadcastTo_1b_ab_apply]

/-- Call 1's store at row p. -/
theorem store4_apply (x0 x1 x2 : Vec Ideal S2000x1 .f32) (x3 : Vec Ideal S1x1 .f32) (p : Fin 2000) (q : Fin 1) :
    k1_pay1 (F := Ideal) x0 x1 x2 x3 (ix2 p q)
      = (x0 (ix2 p q) + Cert.Spec.mean (x2 (ix2 p q)) (x1 (ix2 p q))) + x3 (ix2 (0 : Fin 1) (0 : Fin 1)) := by
  obtain rfl : q = 0 := Subsingleton.elim q 0
  unfold k1_pay1
  simp only [shapeCast_self, addf, broadcastTo_1b_ab_apply]
  rfl

/-! ## From the blocks to the arrays -/

section Blocks

variable (V : (c : Dev nD) → (b : Ref sig .tc) → Buf (Elt Ideal) ((c : Thread nD τ).loc b))

/-- The sum of the units against a weight row, at a row of the block, is `proj` at the array's row, once the
    block's reads are the arrays' entries. -/
theorem proj_point (x0 x1 x2 : Vec Ideal S2000x1 .f32) (x3 x4 x5 x6 : Vec Ideal S1x10 .f32)
    (a0 a1 a2 : S500000x1.Idx → EReal) (a3 a4 a5 a6 : S1x10.Idx → EReal) (r : Fin 500000) (p : Fin 2000)
    (h0 : x0 (ix2 p (0 : Fin 1)) = a0 (ix2 r (0 : Fin 1))) (h1 : x1 (ix2 p (0 : Fin 1)) = a1 (ix2 r (0 : Fin 1)))
    (h2 : x2 (ix2 p (0 : Fin 1)) = a2 (ix2 r (0 : Fin 1))) (h3 : x3 = a3) (h4 : x4 = a4) (h5 : x5 = a5) (h6 : x6 = a6) :
    (∑ k : Fin 10, unit (x0 (ix2 p (0 : Fin 1))) (x1 (ix2 p (0 : Fin 1))) (x2 (ix2 p (0 : Fin 1))) x3 x4 x5 k
        * x6 (ix2 (0 : Fin 1) k)) = proj a0 a1 a2 a3 a4 a5 a6 (ix2 r (0 : Fin 1)) := by
  subst h3 h4 h5 h6
  unfold proj
  rw [h0, h1, h2]

/-- Call 0's index maps over its 250 points: the long windows move with the outputs, the weight rows stay. -/
theorem idx_facts0 : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = win0_8.index t (0 : Fin 2) ∧ win0_9.index t (1 : Fin 2) = 0
    ∧ win0_8.index t (1 : Fin 2) = 0 ∧ win0_8.index t (0 : Fin 2) ≤ 249 :=
  (by decide +kernel : ∀ t : Fin grid0.N, _)

/-- Every block of rows is some point's, for both outputs of call 0. -/
theorem idx_onto0 : ∀ q0 : Fin 250, ∃ t : Fin cfg0.N, win0_8.index t = ![q0.val, 0] ∧ win0_9.index t = ![q0.val, 0] :=
  (by decide +kernel : ∀ q0 : Fin 250, ∃ t : Fin grid0.N, win0_8.index t = ![q0.val, 0] ∧ win0_9.index t = ![q0.val, 0])

/-- Call 1's index maps over its 250 points. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 249 :=
  (by decide +kernel : ∀ t : Fin grid1.N, _)

/-- Every block of rows is some point's, for call 1's output. -/
theorem idx_onto1 : ∀ q0 : Fin 250, ∃ t : Fin cfg1.N, win1_4.index t = ![q0.val, 0] :=
  (by decide +kernel : ∀ q0 : Fin 250, ∃ t : Fin grid1.N, win1_4.index t = ![q0.val, 0])

end Blocks

end Cert.KernelIdeal.RegionValue

end
-- ==== Proof.RegionFinal.lean ====
/-
  The output arrays of the kernel's two calls after their runs: every block a point writes back is a block of one
  whole-array function (RegionValue's `proj` and `last`) of the arrays the call finds at entry, and the 250 blocks of
  2000 rows cover the 500000 rows.
-/
import proofs.«402566_j21191368638621_3_alg».proof.Proof.RegionValue

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

section Blocks

variable (V : (c : Dev nD) → (b : Ref sig .tc) → Buf (Elt Ideal) ((c : Thread nD τ).loc b))

/-- What point t writes back through output window 8 is block t of `proj` against the window-6 row. -/
theorem flushed8_eq (c : Dev nD) (t : Fin cfg0.N) :
    (dat0 V c).flushed 8 t = ((cfg0.win 8).blk t).view.read (Elt Ideal)
      (proj (V c main_arg0) (V c main_call0_v10) (V c main_call0_v15) (V c main_arg4) (V c main_arg5)
        (V c main_call0_v16) (V c main_call0_v17)) := by
  show (cfg0.win 8).cut (grid0.coords t) ((dat0 V c).after 8 t) = _
  rw [after0_8]
  unfold out0_8
  rw [View.canon_unit_zero hz]
  simp only [View.ld_unit_zero (S := S2000x1) hz, View.ld_unit_zero (S := S1x10) hz]
  obtain ⟨i00, i01, i10, i11, i20, i21, i30, i31, i40, i41, i50, i51, i60, i61, i70, i71, i90, i91, i81, i8b⟩ := idx_facts0 t
  funext j
  obtain ⟨p, q, rfl⟩ : ∃ (p : Fin 2000) (q : Fin 1), j = ix2 p q := ⟨j 0, j 1, eq_ix2 j⟩
  have hp : p.val < 2000 := p.isLt
  have hq : q.val < 1 := q.isLt
  have hr : win0_8.index t (0 : Fin 2) * 2000 + p.val < 500000 := by omega
  have e8 : ((cfg0.win 8).blk t).view.emb (ix2 p q) = ix2 (⟨win0_8.index t (0 : Fin 2) * 2000 + p.val, hr⟩ : Fin 500000) (0 : Fin 1) := by
    funext a; apply Fin.ext
    match a with
    | ⟨0, _⟩ => show win0_8.index t (0 : Fin 2) * 2000 + 1 * p.val = win0_8.index t (0 : Fin 2) * 2000 + p.val; omega
    | ⟨1, _⟩ => show win0_8.index t (1 : Fin 2) * 1 + 1 * q.val = 0; omega
  have hrv : (⟨win0_8.index t (0 : Fin 2) * 2000 + p.val, hr⟩ : Fin 500000).val = win0_8.index t (0 : Fin 2) * 2000 + p.val := rfl
  generalize (⟨win0_8.index t (0 : Fin 2) * 2000 + p.val, hr⟩ : Fin 500000) = r at e8 hrv
  refine (store8_apply (iblk0 V c 0 t) (iblk0 V c 1 t) (iblk0 V c 2 t) (iblk0 V c 3 t) (iblk0 V c 4 t) (iblk0 V c 5 t)
    (iblk0 V c 6 t) p q).trans ?_
  show _ = proj (V c main_arg0) (V c main_call0_v10) (V c main_call0_v15) (V c main_arg4) (V c main_arg5)
        (V c main_call0_v16) (V c main_call0_v17) (((cfg0.win 8).blk t).view.emb (ix2 p q))
  rw [e8]
  refine proj_point (iblk0 V c 0 t) (iblk0 V c 1 t) (iblk0 V c 2 t) (iblk0 V c 3 t) (iblk0 V c 4 t) (iblk0 V c 5 t)
    (iblk0 V c 6 t) (V c main_arg0) (V c main_call0_v10) (V c main_call0_v15) (V c main_arg4) (V c main_arg5)
    (V c main_call0_v16) (V c main_call0_v17) r p ?_ ?_ ?_ ?_ ?_ ?_ ?_
  · show V c main_arg0 (((cfg0.win 0).blk t).view.emb (ix2 p (0 : Fin 1))) = V c main_arg0 (ix2 r (0 : Fin 1))
    refine congrArg _ (funext fun a => Fin.ext ?_)
    match a with
    | ⟨0, _⟩ => show win0_0.index t (0 : Fin 2) * 2000 + 1 * p.val = r.val; omega
    | ⟨1, _⟩ => show win0_0.index t (1 : Fin 2) * 1 + 1 * 0 = 0; omega
  · show V c main_call0_v10 (((cfg0.win 1).blk t).view.emb (ix2 p (0 : Fin 1))) = V c main_call0_v10 (ix2 r (0 : Fin 1))
    refine congrArg _ (funext fun a => Fin.ext ?_)
    match a with
    | ⟨0, _⟩ => show win0_1.index t (0 : Fin 2) * 2000 + 1 * p.val = r.val; omega
    | ⟨1, _⟩ => show win0_1.index t (1 : Fin 2) * 1 + 1 * 0 = 0; omega
  · show V c main_call0_v15 (((cfg0.win 2).blk t).view.emb (ix2 p (0 : Fin 1))) = V c main_call0_v15 (ix2 r (0 : Fin 1))
    refine congrArg _ (funext fun a => Fin.ext ?_)
    match a with
    | ⟨0, _⟩ => show win0_2.index t (0 : Fin 2) * 2000 + 1 * p.val = r.val; omega
    | ⟨1, _⟩ => show win0_2.index t (1 : Fin 2) * 1 + 1 * 0 = 0; omega
  · funext y
    show V c main_arg4 (((cfg0.win 3).blk t).view.emb y) = V c main_arg4 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 10 + 1 * (y 1).val = (y 1).val; omega
  · funext y
    show V c main_arg5 (((cfg0.win 4).blk t).view.emb y) = V c main_arg5 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 10 + 1 * (y 1).val = (y 1).val; omega
  · funext y
    show V c main_call0_v16 (((cfg0.win 5).blk t).view.emb y) = V c main_call0_v16 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 10 + 1 * (y 1).val = (y 1).val; omega
  · funext y
    show V c main_call0_v17 (((cfg0.win 6).blk t).view.emb y) = V c main_call0_v17 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 10 + 1 * (y 1).val = (y 1).val; omega

/-- An index of the array is in point t's block of output window 8 iff each coordinate is in the block's range. -/
theorem mem_blk8 (t : Fin cfg0.N) (i : S500000x1.Idx) :
    i ∈ ((cfg0.win 8).blk t).view.set ↔ ∀ a : Fin 2, win0_8.index t a * S2000x1.size a ≤ (i a).val ∧ (i a).val < win0_8.index t a * S2000x1.size a + S2000x1.size a := by
  show i ∈ ((View.whole main_call0_v19_0).slice (win0_8.rect t)).set ↔ _
  rw [View.set_slice_whole, Rect.mem_set_unit]
  exact Iff.rfl

/-- The 250 blocks of output window 8 cover its array: row r is in the block of point r / 2000. -/
theorem cover8 (i : S500000x1.Idx) : ∃ t : Fin cfg0.N, (cfg0.win 8).flush t = true ∧ i ∈ ((cfg0.win 8).blk t).view.set := by
  have hi0 : (i 0).val < 500000 := (i 0).isLt
  have hi1 : (i 1).val < 1 := (i 1).isLt
  obtain ⟨t, ht8, ht9⟩ := idx_onto0 ⟨(i 0).val / 2000, by omega⟩
  have q0 : win0_8.index t (0 : Fin 2) = (i 0).val / 2000 := congrFun ht8 0
  have q1 : win0_8.index t (1 : Fin 2) = 0 := congrFun ht8 1
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 1 ≤ (i 1).val ∧ (i 1).val < win0_8.index t (1 : Fin 2) * 1 + 1; omega

/-- Output array 8 after call 0's run. -/
theorem final8 (c : Dev nD) : (dat0 V c).arrAt 8 cfg0.N
    = proj (V c main_arg0) (V c main_call0_v10) (V c main_call0_v15) (V c main_arg4) (V c main_arg5)
        (V c main_call0_v16) (V c main_call0_v17) :=
  (dat0 V c).arrAt_eq_of_cover 8 _ (fun t _ => flushed8_eq V c t) cover8

/-- What point t writes back through output window 9 is block t of `proj` against the window-7 row. -/
theorem flushed9_eq (c : Dev nD) (t : Fin cfg0.N) :
    (dat0 V c).flushed 9 t = ((cfg0.win 9).blk t).view.read (Elt Ideal)
      (proj (V c main_arg0) (V c main_call0_v10) (V c main_call0_v15) (V c main_arg4) (V c main_arg5)
        (V c main_call0_v16) (V c main_call0_v18)) := by
  show (cfg0.win 9).cut (grid0.coords t) ((dat0 V c).after 9 t) = _
  rw [after0_9]
  unfold out0_9
  rw [View.canon_unit_zero hz]
  simp only [View.ld_unit_zero (S := S2000x1) hz, View.ld_unit_zero (S := S1x10) hz]
  obtain ⟨i00, i01, i10, i11, i20, i21, i30, i31, i40, i41, i50, i51, i60, i61, i70, i71, i90, i91, i81, i8b⟩ := idx_facts0 t
  funext j
  obtain ⟨p, q, rfl⟩ : ∃ (p : Fin 2000) (q : Fin 1), j = ix2 p q := ⟨j 0, j 1, eq_ix2 j⟩
  have hp : p.val < 2000 := p.isLt
  have hq : q.val < 1 := q.isLt
  have hr : win0_8.index t (0 : Fin 2) * 2000 + p.val < 500000 := by omega
  have e8 : ((cfg0.win 9).blk t).view.emb (ix2 p q) = ix2 (⟨win0_8.index t (0 : Fin 2) * 2000 + p.val, hr⟩ : Fin 500000) (0 : Fin 1) := by
    funext a; apply Fin.ext
    match a with
    | ⟨0, _⟩ => show win0_9.index t (0 : Fin 2) * 2000 + 1 * p.val = win0_8.index t (0 : Fin 2) * 2000 + p.val; omega
    | ⟨1, _⟩ => show win0_9.index t (1 : Fin 2) * 1 + 1 * q.val = 0; omega
  have hrv : (⟨win0_8.index t (0 : Fin 2) * 2000 + p.val, hr⟩ : Fin 500000).val = win0_8.index t (0 : Fin 2) * 2000 + p.val := rfl
  generalize (⟨win0_8.index t (0 : Fin 2) * 2000 + p.val, hr⟩ : Fin 500000) = r at e8 hrv
  refine (store9_apply (iblk0 V c 0 t) (iblk0 V c 1 t) (iblk0 V c 2 t) (iblk0 V c 3 t) (iblk0 V c 4 t) (iblk0 V c 5 t)
    (iblk0 V c 7 t) p q).trans ?_
  show _ = proj (V c main_arg0) (V c main_call0_v10) (V c main_call0_v15) (V c main_arg4) (V c main_arg5)
        (V c main_call0_v16) (V c main_call0_v18) (((cfg0.win 9).blk t).view.emb (ix2 p q))
  rw [e8]
  refine proj_point (iblk0 V c 0 t) (iblk0 V c 1 t) (iblk0 V c 2 t) (iblk0 V c 3 t) (iblk0 V c 4 t) (iblk0 V c 5 t)
    (iblk0 V c 7 t) (V c main_arg0) (V c main_call0_v10) (V c main_call0_v15) (V c main_arg4) (V c main_arg5)
    (V c main_call0_v16) (V c main_call0_v18) r p ?_ ?_ ?_ ?_ ?_ ?_ ?_
  · show V c main_arg0 (((cfg0.win 0).blk t).view.emb (ix2 p (0 : Fin 1))) = V c main_arg0 (ix2 r (0 : Fin 1))
    refine congrArg _ (funext fun a => Fin.ext ?_)
    match a with
    | ⟨0, _⟩ => show win0_0.index t (0 : Fin 2) * 2000 + 1 * p.val = r.val; omega
    | ⟨1, _⟩ => show win0_0.index t (1 : Fin 2) * 1 + 1 * 0 = 0; omega
  · show V c main_call0_v10 (((cfg0.win 1).blk t).view.emb (ix2 p (0 : Fin 1))) = V c main_call0_v10 (ix2 r (0 : Fin 1))
    refine congrArg _ (funext fun a => Fin.ext ?_)
    match a with
    | ⟨0, _⟩ => show win0_1.index t (0 : Fin 2) * 2000 + 1 * p.val = r.val; omega
    | ⟨1, _⟩ => show win0_1.index t (1 : Fin 2) * 1 + 1 * 0 = 0; omega
  · show V c main_call0_v15 (((cfg0.win 2).blk t).view.emb (ix2 p (0 : Fin 1))) = V c main_call0_v15 (ix2 r (0 : Fin 1))
    refine congrArg _ (funext fun a => Fin.ext ?_)
    match a with
    | ⟨0, _⟩ => show win0_2.index t (0 : Fin 2) * 2000 + 1 * p.val = r.val; omega
    | ⟨1, _⟩ => show win0_2.index t (1 : Fin 2) * 1 + 1 * 0 = 0; omega
  · funext y
    show V c main_arg4 (((cfg0.win 3).blk t).view.emb y) = V c main_arg4 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 10 + 1 * (y 1).val = (y 1).val; omega
  · funext y
    show V c main_arg5 (((cfg0.win 4).blk t).view.emb y) = V c main_arg5 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 10 + 1 * (y 1).val = (y 1).val; omega
  · funext y
    show V c main_call0_v16 (((cfg0.win 5).blk t).view.emb y) = V c main_call0_v16 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 10 + 1 * (y 1).val = (y 1).val; omega
  · funext y
    show V c main_call0_v18 (((cfg0.win 7).blk t).view.emb y) = V c main_call0_v18 y
    refine congrArg _ (funext fun a => Fin.ext ?_)
    match a with
    | ⟨0, _⟩ => show win0_7.index t (0 : Fin 2) * 1 + 1 * (y 0).val = (y 0).val; omega
    | ⟨1, _⟩ => show win0_7.index t (1 : Fin 2) * 10 + 1 * (y 1).val = (y 1).val; omega

/-- An index of the array is in point t's block of output window 9 iff each coordinate is in the block's range. -/
theorem mem_blk9 (t : Fin cfg0.N) (i : S500000x1.Idx) :
    i ∈ ((cfg0.win 9).blk t).view.set ↔ ∀ a : Fin 2, win0_9.index t a * S2000x1.size a ≤ (i a).val ∧ (i a).val < win0_9.index t a * S2000x1.size a + S2000x1.size a := by
  show i ∈ ((View.whole main_call0_v19_1).slice (win0_9.rect t)).set ↔ _
  rw [View.set_slice_whole, Rect.mem_set_unit]
  exact Iff.rfl

/-- The 250 blocks of output window 9 cover its array: row r is in the block of point r / 2000. -/
theorem cover9 (i : S500000x1.Idx) : ∃ t : Fin cfg0.N, (cfg0.win 9).flush t = true ∧ i ∈ ((cfg0.win 9).blk t).view.set := by
  have hi0 : (i 0).val < 500000 := (i 0).isLt
  have hi1 : (i 1).val < 1 := (i 1).isLt
  obtain ⟨t, ht8, ht9⟩ := idx_onto0 ⟨(i 0).val / 2000, by omega⟩
  have q0 : win0_9.index t (0 : Fin 2) = (i 0).val / 2000 := congrFun ht9 0
  have q1 : win0_9.index t (1 : Fin 2) = 0 := congrFun ht9 1
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 1 ≤ (i 1).val ∧ (i 1).val < win0_9.index t (1 : Fin 2) * 1 + 1; omega

/-- Output array 9 after call 0's run. -/
theorem final9 (c : Dev nD) : (dat0 V c).arrAt 9 cfg0.N
    = proj (V c main_arg0) (V c main_call0_v10) (V c main_call0_v15) (V c main_arg4) (V c main_arg5)
        (V c main_call0_v16) (V c main_call0_v18) :=
  (dat0 V c).arrAt_eq_of_cover 9 _ (fun t _ => flushed9_eq V c t) cover9

/-- The last step at a row of the block is `last` at the array's row, once the block's reads are the arrays' entries. -/
theorem last_point (x0 x1 x2 : Vec Ideal S2000x1 .f32) (x3 : Vec Ideal S1x1 .f32)
    (a0 a1 a2 : S500000x1.Idx → EReal) (a3 : S1x1.Idx → EReal) (r : Fin 500000) (p : Fin 2000)
    (h0 : x0 (ix2 p (0 : Fin 1)) = a0 (ix2 r (0 : Fin 1))) (h1 : x1 (ix2 p (0 : Fin 1)) = a1 (ix2 r (0 : Fin 1)))
    (h2 : x2 (ix2 p (0 : Fin 1)) = a2 (ix2 r (0 : Fin 1))) (h3 : x3 = a3) :
    (x0 (ix2 p (0 : Fin 1)) + Cert.Spec.mean (x2 (ix2 p (0 : Fin 1))) (x1 (ix2 p (0 : Fin 1)))) + x3 (ix2 (0 : Fin 1) (0 : Fin 1))
      = last a0 a1 a2 a3 (ix2 r (0 : Fin 1)) := by
  subst h3
  unfold last
  rw [h0, h1, h2]

/-- What point t of call 1 writes back is block t of `last`. -/
theorem flushed4_eq (c : Dev nD) (t : Fin cfg1.N) :
    (dat1 V c).flushed 4 t = ((cfg1.win 4).blk t).view.read (Elt Ideal)
      (last (V c main_call0_v19_0) (V c main_call0_v30) (V c main_call0_v15) (V c main_call0_v31)) := by
  show (cfg1.win 4).cut (grid1.coords t) ((dat1 V c).after 4 t) = _
  rw [after1_4]
  unfold out1_4
  rw [View.canon_unit_zero hz]
  simp only [View.ld_unit_zero (S := S2000x1) hz, View.ld_unit_zero (S := S1x1) hz]
  obtain ⟨i00, i01, i10, i11, i20, i21, i30, i31, i41, i4b⟩ := idx_facts1 t
  funext j
  obtain ⟨p, q, rfl⟩ : ∃ (p : Fin 2000) (q : Fin 1), j = ix2 p q := ⟨j 0, j 1, eq_ix2 j⟩
  obtain rfl : q = 0 := Subsingleton.elim q 0
  have hp : p.val < 2000 := p.isLt
  have hr : win1_4.index t (0 : Fin 2) * 2000 + p.val < 500000 := by omega
  have e8 : ((cfg1.win 4).blk t).view.emb (ix2 p (0 : Fin 1)) = ix2 (⟨win1_4.index t (0 : Fin 2) * 2000 + p.val, hr⟩ : Fin 500000) (0 : Fin 1) := by
    funext a; apply Fin.ext
    match a with
    | ⟨0, _⟩ => show win1_4.index t (0 : Fin 2) * 2000 + 1 * p.val = win1_4.index t (0 : Fin 2) * 2000 + p.val; omega
    | ⟨1, _⟩ => show win1_4.index t (1 : Fin 2) * 1 + 1 * 0 = 0; omega
  have hrv : (⟨win1_4.index t (0 : Fin 2) * 2000 + p.val, hr⟩ : Fin 500000).val = win1_4.index t (0 : Fin 2) * 2000 + p.val := rfl
  generalize (⟨win1_4.index t (0 : Fin 2) * 2000 + p.val, hr⟩ : Fin 500000) = r at e8 hrv
  refine (store4_apply (iblk1 V c 0 t) (iblk1 V c 1 t) (iblk1 V c 2 t) (iblk1 V c 3 t) p (0 : Fin 1)).trans ?_
  show _ = last (V c main_call0_v19_0) (V c main_call0_v30) (V c main_call0_v15) (V c main_call0_v31)
        (((cfg1.win 4).blk t).view.emb (ix2 p (0 : Fin 1)))
  rw [e8]
  refine last_point (iblk1 V c 0 t) (iblk1 V c 1 t) (iblk1 V c 2 t) (iblk1 V c 3 t)
    (V c main_call0_v19_0) (V c main_call0_v30) (V c main_call0_v15) (V c main_call0_v31) r p ?_ ?_ ?_ ?_
  · show V c main_call0_v19_0 (((cfg1.win 0).blk t).view.emb (ix2 p (0 : Fin 1))) = V c main_call0_v19_0 (ix2 r (0 : Fin 1))
    refine congrArg _ (funext fun a => Fin.ext ?_)
    match a with
    | ⟨0, _⟩ => show win1_0.index t (0 : Fin 2) * 2000 + 1 * p.val = r.val; omega
    | ⟨1, _⟩ => show win1_0.index t (1 : Fin 2) * 1 + 1 * 0 = 0; omega
  · show V c main_call0_v30 (((cfg1.win 1).blk t).view.emb (ix2 p (0 : Fin 1))) = V c main_call0_v30 (ix2 r (0 : Fin 1))
    refine congrArg _ (funext fun a => Fin.ext ?_)
    match a with
    | ⟨0, _⟩ => show win1_1.index t (0 : Fin 2) * 2000 + 1 * p.val = r.val; omega
    | ⟨1, _⟩ => show win1_1.index t (1 : Fin 2) * 1 + 1 * 0 = 0; omega
  · show V c main_call0_v15 (((cfg1.win 2).blk t).view.emb (ix2 p (0 : Fin 1))) = V c main_call0_v15 (ix2 r (0 : Fin 1))
    refine congrArg _ (funext fun a => Fin.ext ?_)
    match a with
    | ⟨0, _⟩ => show win1_2.index t (0 : Fin 2) * 2000 + 1 * p.val = r.val; omega
    | ⟨1, _⟩ => show win1_2.index t (1 : Fin 2) * 1 + 1 * 0 = 0; omega
  · funext y
    show V c main_call0_v31 (((cfg1.win 3).blk t).view.emb y) = V c main_call0_v31 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 1 + 1 * (y 1).val = (y 1).val; omega

/-- An index of the array is in point t's block of call 1's output iff each coordinate is in the block's range. -/
theorem mem_blk4 (t : Fin cfg1.N) (i : S500000x1.Idx) :
    i ∈ ((cfg1.win 4).blk t).view.set ↔ ∀ a : Fin 2, win1_4.index t a * S2000x1.size a ≤ (i a).val ∧ (i a).val < win1_4.index t a * S2000x1.size a + S2000x1.size a := by
  show i ∈ ((View.whole main_v0).slice (win1_4.rect t)).set ↔ _
  rw [View.set_slice_whole, Rect.mem_set_unit]
  exact Iff.rfl

/-- The 250 blocks of call 1's output cover its array. -/
theorem cover4 (i : S500000x1.Idx) : ∃ t : Fin cfg1.N, (cfg1.win 4).flush t = true ∧ i ∈ ((cfg1.win 4).blk t).view.set := by
  have hi0 : (i 0).val < 500000 := (i 0).isLt
  have hi1 : (i 1).val < 1 := (i 1).isLt
  obtain ⟨t, ht⟩ := idx_onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 1 ≤ (i 1).val ∧ (i 1).val < win1_4.index t (1 : Fin 2) * 1 + 1; omega

/-- The result array after call 1's run. -/
theorem final4 (c : Dev nD) : (dat1 V c).arrAt 4 cfg1.N
    = last (V c main_call0_v19_0) (V c main_call0_v30) (V c main_call0_v15) (V c main_call0_v31) :=
  (dat1 V c).arrAt_eq_of_cover 4 _ (fun t _ => flushed4_eq V c t) cover4

end Blocks

end Cert.KernelIdeal.RegionValue

end
-- ==== Proof.KernelStages.lean ====
/-
  The kernel program's host side, stage by stage, as functions of the ten inputs (at the exact reals).

  Before the first call the host normalises the source indices, gathers the source features, multiplies by the edge
  weights and scatter-adds into the destination rows (`agg1`); it counts the in-edges of every node in 32-bit integers
  and converts the counts (`degK`); it lays the bias and the two projection columns out as rows.  The first call
  gives the two projected arrays (`P1`, `Q1`: RegionValue's `proj`).  Between the calls the host gathers the projected
  number `Q1` at the source rows, multiplies by the edge weights and scatter-adds (`agg2`).  The second call is the
  last step (`OUT`: RegionValue's `last`).
-/
import proofs.«402566_j21191368638621_3_alg».proof.Proof.RegionValue

noncomputable section

namespace Cert.KernelIdeal.Stages

open Idealize.ShloMosaic Idealize.ShloMosaic.TcCoe Idealize.ShloMosaic.ValueIdx
open Cert.KernelIdeal Cert.KernelIdeal.Gen Cert.KernelIdeal.RegionValue

/-- The source indices normalised (a negative index + 500000) and laid out as a column of start indices. -/
def srcCol (x2 : IVec S16000000 32) : IVec S16000000x1 32 :=
  broadcastInDim S16000000x1 ![0] bcast_S16000000_S16000000x1_0
    (select (cmpi .slt x2 (broadcastInDim S16000000 ![] bcast_S_S16000000 (constantI S_ 32 0#32)))
      (addi x2 (broadcastInDim S16000000 ![] bcast_S_S16000000 (constantI S_ 32 500000#32))) x2)

/-- The destination indices as a column of start indices. -/
def dstCol (x3 : IVec S16000000 32) : IVec S16000000x1 32 :=
  broadcastInDim S16000000x1 ![0] bcast_S16000000_S16000000x1_0 x3

/-- A feature column gathered at the source rows, times the edge weights, scatter-added into the destination rows. -/
def aggOf (x : FVec Ideal S500000x1 .f32) (x1 : FVec Ideal S16000000x1 .f32) (x2 x3 : IVec S16000000 32) :
    FVec Ideal S500000x1 .f32 :=
  Host.scatterAdd scatter_S500000x1_S16000000x1_S16000000x1_1_0_0_1
    (broadcastInDim S500000x1 ![] bcast_S_S500000x1 (constant (F := Ideal) S_ .f32 0x00000000#32)) (dstCol x3)
    (mulf (Host.gather gather_S500000x1_S16000000x1_S16000000x1_1_0_n_n_0_1_11 x (srcCol x2)) x1)

/-- The in-degrees: ones scatter-added in 32-bit integers, then converted. -/
def degK (x3 : IVec S16000000 32) : FVec Ideal S500000x1 .f32 :=
  sitofp (F := Ideal) .f32
    (Host.scatter scatter_S500000x1_S16000000x1_S16000000x1_1_0_0_1 IntOp.addi
      (broadcastInDim S500000x1 ![] bcast_S_S500000x1 (constantI S_ 32 0#32)) (dstCol x3)
      (broadcastInDim S16000000x1 ![] bcast_S_S16000000x1 (constantI S_ 32 1#32)))

/-- The bias of layer one as a row. -/
def b1row (x6 : FVec Ideal S10 .f32) : FVec Ideal S1x10 .f32 := shapeCast S1x10 x6 shapeCasts_S10_S1x10

/-- A projection column of layer two as a row. -/
def colRow (x : FVec Ideal S10x1 .f32) : FVec Ideal S1x10 .f32 := transpose S1x10 [1, 0] x transposes_S10x1_S1x10_1_0

/-- The hidden units projected on the self weights: the first call's first output. -/
def P1 (x0 : FVec Ideal S500000x1 .f32) (x1 : FVec Ideal S16000000x1 .f32) (x2 x3 : IVec S16000000 32)
    (x4 x5 : FVec Ideal S1x10 .f32) (x6 : FVec Ideal S10 .f32) (x7 : FVec Ideal S10x1 .f32) : FVec Ideal S500000x1 .f32 :=
  proj x0 (aggOf x0 x1 x2 x3) (degK x3) x4 x5 (b1row x6) (colRow x7)

/-- The hidden units projected on the neighbour weights: the first call's second output. -/
def Q1 (x0 : FVec Ideal S500000x1 .f32) (x1 : FVec Ideal S16000000x1 .f32) (x2 x3 : IVec S16000000 32)
    (x4 x5 : FVec Ideal S1x10 .f32) (x6 : FVec Ideal S10 .f32) (x8 : FVec Ideal S10x1 .f32) : FVec Ideal S500000x1 .f32 :=
  proj x0 (aggOf x0 x1 x2 x3) (degK x3) x4 x5 (b1row x6) (colRow x8)

/-- The kernel program's result. -/
def OUT (x0 : FVec Ideal S500000x1 .f32) (x1 : FVec Ideal S16000000x1 .f32) (x2 x3 : IVec S16000000 32)
    (x4 x5 : FVec Ideal S1x10 .f32) (x6 : FVec Ideal S10 .f32) (x7 x8 : FVec Ideal S10x1 .f32) (x9 : FVec Ideal S1 .f32) :
    FVec Ideal S500000x1 .f32 :=
  last (P1 x0 x1 x2 x3 x4 x5 x6 x7) (aggOf (Q1 x0 x1 x2 x3 x4 x5 x6 x8) x1 x2 x3) (degK x3)
    (shapeCast S1x1 x9 shapeCasts_S1_S1x1)

end Cert.KernelIdeal.Stages

end
-- ==== Proof.KernelValue.lean ====
/-
  The kernel program's result array after the run is the host-and-calls composition `Stages.OUT` of the ten inputs.

  The run's buffer contents are a fold through @main: the launch memory, the first host stretch, the first call's
  write-backs, the second host stretch, the second call's write-backs.  Reading the result buffer back through the fold:
  the second call leaves `last` of what it finds; what it finds is the second stretch's results over the first call's
  outputs; those are `proj` of what the first call finds; and that is the first stretch's results over the inputs.
-/
import proofs.«402566_j21191368638621_3_alg».proof.Proof.Gen.KernelIdeal.Frame
import proofs.«402566_j21191368638621_3_alg».proof.Proof.RegionFinal
import proofs.«402566_j21191368638621_3_alg».proof.Proof.KernelStages
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Idealize.ShloMosaic.StableHlo
open Idealize.ShloMosaic.Pipeline (Dat Cfg Window)
open Cert.KernelIdeal Cert.KernelIdeal.Gen Cert.KernelIdeal.RegionValue Cert.KernelIdeal.Stages

variable (m : (ℓ : Loc nD τ sig) → Buf (Elt Ideal) ℓ) (ρ : Dev nD → PrngReg)

/-! ## After the first host stretch -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp
theorem W1_arg1 (c : Dev nD) : W1 m ρ c (Proc.devRef .tc main_arg1) = m ((c.tc : Thread nD τ).loc main_arg1) := by
  show StableHlo.after hostOps0 (W0 m ρ c) (Proc.devRef .tc main_arg1) = _
  after_results_simp
theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp
theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp
theorem W1_arg4 (c : Dev nD) : W1 m ρ c (Proc.devRef .tc main_arg4) = m ((c.tc : Thread nD τ).loc main_arg4) := by
  show StableHlo.after hostOps0 (W0 m ρ c) (Proc.devRef .tc main_arg4) = _
  after_results_simp
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp
theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp
theorem W1_arg8 (c : Dev nD) : W1 m ρ c (Proc.devRef .tc main_arg8) = m ((c.tc : Thread nD τ).loc main_arg8) := by
  show StableHlo.after hostOps0 (W0 m ρ c) (Proc.devRef .tc main_arg8) = _
  after_results_simp
theorem W1_arg9 (c : Dev nD) : W1 m ρ c (Proc.devRef .tc main_arg9) = m ((c.tc : Thread nD τ).loc main_arg9) := by
  show StableHlo.after hostOps0 (W0 m ρ c) (Proc.devRef .tc main_arg9) = _
  after_results_simp

/-- The first aggregate. -/
theorem W1_v10 (c : Dev nD) : W1 m ρ c (Proc.devRef .tc main_call0_v10)
    = aggOf (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_call0_v10) = _
  after_results
  unfold TRef.toBuf TRef.ofBuf
  repeat rw [cast_eq]
  have h : aggOf (W0 m ρ c (Proc.devRef .tc main_arg0)) (W0 m ρ c (Proc.devRef .tc main_arg1))
      (W0 m ρ c (Proc.devRef .tc main_arg2)) (W0 m ρ c (Proc.devRef .tc main_arg3))
      = aggOf (m ((c.tc : Thread nD τ).loc main_arg0)) (m ((c.tc : Thread nD τ).loc main_arg1)) (m ((c.tc : Thread nD τ).loc main_arg2)) (m ((c.tc : Thread nD τ).loc main_arg3)) := rfl
  exact h

/-- The degrees. -/
theorem W1_v15 (c : Dev nD) : W1 m ρ c (Proc.devRef .tc main_call0_v15) = degK (m ((c.tc : Thread nD τ).loc main_arg3)) := by
  show StableHlo.after hostOps0 (W0 m ρ c) (Proc.devRef .tc main_call0_v15) = _
  after_results
  unfold TRef.toBuf TRef.ofBuf
  repeat rw [cast_eq]
  exact congrArg degK (rfl : W0 m ρ c (Proc.devRef .tc main_arg3) = m ((c.tc : Thread nD τ).loc main_arg3))

/-- The bias row. -/
theorem W1_v16 (c : Dev nD) : W1 m ρ c (Proc.devRef .tc main_call0_v16) = b1row (m ((c.tc : Thread nD τ).loc main_arg6)) := by
  show StableHlo.after hostOps0 (W0 m ρ c) (Proc.devRef .tc main_call0_v16) = _
  after_results
  exact congrArg b1row (rfl : W0 m ρ c (Proc.devRef .tc main_arg6) = m ((c.tc : Thread nD τ).loc main_arg6))

/-- The self weights of layer two as a row. -/
theorem W1_v17 (c : Dev nD) : W1 m ρ c (Proc.devRef .tc main_call0_v17) = colRow (m ((c.tc : Thread nD τ).loc main_arg7)) := by
  show StableHlo.after hostOps0 (W0 m ρ c) (Proc.devRef .tc main_call0_v17) = _
  after_results
  unfold TRef.toBuf TRef.ofBuf
  repeat rw [cast_eq]
  exact congrArg colRow (rfl : W0 m ρ c (Proc.devRef .tc main_arg7) = m ((c.tc : Thread nD τ).loc main_arg7))

/-- The neighbour weights of layer two as a row. -/
theorem W1_v18 (c : Dev nD) : W1 m ρ c (Proc.devRef .tc main_call0_v18) = colRow (m ((c.tc : Thread nD τ).loc main_arg8)) := by
  show StableHlo.after hostOps0 (W0 m ρ c) (Proc.devRef .tc main_call0_v18) = _
  after_results
  unfold TRef.toBuf TRef.ofBuf
  repeat rw [cast_eq]
  exact congrArg colRow (rfl : W0 m ρ c (Proc.devRef .tc main_arg8) = m ((c.tc : Thread nD τ).loc main_arg8))

/-! ## After the first call -/

theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg9 (c : Dev nD) : W2 m ρ c (Proc.devRef .tc main_arg9) = m ((c.tc : Thread nD τ).loc main_arg9) :=
  (W2_of_ne m ρ c main_arg9 (by decide)).trans (W1_arg9 m ρ c)

/-- The degrees are an input of the first call: it leaves them. -/
theorem W2_v15 (c : Dev nD) : W2 m ρ c (Proc.devRef .tc main_call0_v15) = degK (m ((c.tc : Thread nD τ).loc main_arg3)) := by
  have h := (W2_arr m ρ c 2).trans (((dat0 (V1 m ρ) c).arrAt_in 2 rfl _).trans (A_eq0 (V1 m ρ) c 2))
  exact h.trans (W1_v15 m ρ c)

/-- The first call's first output. -/
theorem W2_v19_0 (c : Dev nD) : W2 m ρ c (Proc.devRef .tc main_call0_v19_0)
    = P1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine ((W2_arr m ρ c 8).trans (final8 (V1 m ρ) c)).trans ?_
  show proj (W1 m ρ c (Proc.devRef .tc main_arg0)) (W1 m ρ c (Proc.devRef .tc main_call0_v10))
      (W1 m ρ c (Proc.devRef .tc main_call0_v15)) (W1 m ρ c (Proc.devRef .tc main_arg4)) (W1 m ρ c (Proc.devRef .tc main_arg5))
      (W1 m ρ c (Proc.devRef .tc main_call0_v16)) (W1 m ρ c (Proc.devRef .tc main_call0_v17)) = _
  rw [W1_arg0, W1_v10, W1_v15, W1_arg4, W1_arg5, W1_v16, W1_v17]
  rfl

/-- The first call's second output. -/
theorem W2_v19_1 (c : Dev nD) : W2 m ρ c (Proc.devRef .tc main_call0_v19_1)
    = Q1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) := by
  refine ((W2_arr m ρ c 9).trans (final9 (V1 m ρ) c)).trans ?_
  show proj (W1 m ρ c (Proc.devRef .tc main_arg0)) (W1 m ρ c (Proc.devRef .tc main_call0_v10))
      (W1 m ρ c (Proc.devRef .tc main_call0_v15)) (W1 m ρ c (Proc.devRef .tc main_arg4)) (W1 m ρ c (Proc.devRef .tc main_arg5))
      (W1 m ρ c (Proc.devRef .tc main_call0_v16)) (W1 m ρ c (Proc.devRef .tc main_call0_v18)) = _
  rw [W1_arg0, W1_v10, W1_v15, W1_arg4, W1_arg5, W1_v16, W1_v18]
  rfl

/-! ## After the second host stretch -/

theorem W3_v19_0 (c : Dev nD) : W3 m ρ c (Proc.devRef .tc main_call0_v19_0)
    = P1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps1 (W2 m ρ c) (Proc.devRef .tc main_call0_v19_0) = _
  after_results
  exact W2_v19_0 m ρ c

theorem W3_v15 (c : Dev nD) : W3 m ρ c (Proc.devRef .tc main_call0_v15) = degK (m ((c.tc : Thread nD τ).loc main_arg3)) := by
  show StableHlo.after hostOps1 (W2 m ρ c) (Proc.devRef .tc main_call0_v15) = _
  after_results
  exact W2_v15 m ρ c

set_option maxHeartbeats 4000000 in
/-- The second aggregate: of the projected number. -/
theorem W3_v30 (c : Dev nD) : W3 m ρ c (Proc.devRef .tc main_call0_v30)
    = aggOf (Q1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) (m ((c.tc : Thread nD τ).loc main_arg1)) (m ((c.tc : Thread nD τ).loc main_arg2)) (m ((c.tc : Thread nD τ).loc main_arg3)) := by
  show StableHlo.after hostOps1 (W2 m ρ c) (Proc.devRef .tc main_call0_v30) = _
  after_results
  unfold TRef.toBuf TRef.ofBuf
  repeat rw [cast_eq]
  have h : aggOf (W2 m ρ c (Proc.devRef .tc main_call0_v19_1)) (W2 m ρ c (Proc.devRef .tc main_arg1))
      (W2 m ρ c (Proc.devRef .tc main_arg2)) (W2 m ρ c (Proc.devRef .tc main_arg3))
      = aggOf (Q1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) (m ((c.tc : Thread nD τ).loc main_arg1)) (m ((c.tc : Thread nD τ).loc main_arg2)) (m ((c.tc : Thread nD τ).loc main_arg3)) := by
    rw [W2_v19_1, W2_arg1, W2_arg2, W2_arg3]
  exact h

/-- The bias of layer two as a one-by-one array. -/
theorem W3_v31 (c : Dev nD) : W3 m ρ c (Proc.devRef .tc main_call0_v31) = shapeCast S1x1 (m ((c.tc : Thread nD τ).loc main_arg9)) shapeCasts_S1_S1x1 := by
  show StableHlo.after hostOps1 (W2 m ρ c) (Proc.devRef .tc main_call0_v31) = _
  after_results
  have h : shapeCast S1x1 (W2 m ρ c (Proc.devRef .tc main_arg9)) shapeCasts_S1_S1x1 = shapeCast S1x1 (m ((c.tc : Thread nD τ).loc main_arg9)) shapeCasts_S1_S1x1 := by
    rw [W2_arg9]
  exact h

/-! ## After the second call -/

/-- The result array. -/
theorem result_eq (c : Dev nD) : V4 m ρ c main_v0
    = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine ((W4_arr m ρ c 4).trans (final4 (V3 m ρ) c)).trans ?_
  show last (W3 m ρ c (Proc.devRef .tc main_call0_v19_0)) (W3 m ρ c (Proc.devRef .tc main_call0_v30))
      (W3 m ρ c (Proc.devRef .tc main_call0_v15)) (W3 m ρ c (Proc.devRef .tc main_call0_v31)) = _
  rw [W3_v19_0, W3_v30, W3_v15, W3_v31]
  rfl

end Cert.KernelIdeal.RunValue

end
-- ==== Proof.KernelStagesValue.lean ====
/-
  The kernel program's result, read at a node, is the formula `Spec.outK` of the ten inputs.

  The degree is counted in 32-bit integers and converted: fewer than 2^31 edges exist, so the count does not wrap and
  its conversion is the number of in-edges.  The aggregates are exact scatter-added sums over the in-edges of the
  gathered rows times the edge weights; the two calls' outputs are the row functions of RegionValue.
-/
import proofs.«402566_j21191368638621_3_alg».proof.Proof.KernelStages
import proofs.«402566_j21191368638621_3_alg».proof.Proof.Spec
import proofs.«402566_j21191368638621_3_alg».proof.Proof.LibScatterRows
import proofs.«402566_j21191368638621_3_alg».proof.Proof.LibGatherRows
import proofs.«402566_j21191368638621_3_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stages

open Idealize.ShloMosaic Idealize.ShloMosaic.TcCoe Idealize.ShloMosaic.ValueIdx
open Cert.KernelIdeal Cert.KernelIdeal.Gen Cert.KernelIdeal.RegionValue

/-! ## The index columns -/

/-- The column of start indices of the gathers: entry e is the normalised source index of edge e. -/
theorem srcCol_apply (x2 : IVec S16000000 32) (e : Fin 16000000) :
    srcCol x2 (ix2 e (0 : Fin 1)) = Cert.Spec.srcNorm x2 e := by
  unfold srcCol
  refine (broadcastInDim_apply _ bcast_S16000000_S16000000x1_0 _ (ix2 e (0 : Fin 1)) (ix1 e) (fun a => match a with
    | ⟨0, _⟩ => by show e.val = if (16000000 : Nat) = 1 then 0 else e.val; rw [if_neg (by decide)])).trans ?_
  rfl

/-- The column of start indices of the scatters: entry e is the destination index of edge e. -/
theorem dstCol_apply (x3 : IVec S16000000 32) (e : Fin 16000000) :
    dstCol x3 (ix2 e (0 : Fin 1)) = x3 (ix1 e) := by
  unfold dstCol
  exact broadcastInDim_apply _ bcast_S16000000_S16000000x1_0 x3 (ix2 e (0 : Fin 1)) (ix1 e) (fun a => match a with
    | ⟨0, _⟩ => by show e.val = if (16000000 : Nat) = 1 then 0 else e.val; rw [if_neg (by decide)])

/-- The update rows whose start index is node i are the in-edges of i. -/
theorem filter_dstCol (x3 : IVec S16000000 32) (i : Fin 500000) :
    Finset.univ.filter (fun e : Fin 16000000 => (dstCol x3 (ix2 e (0 : Fin 1))).toInt = (i.val : ℤ))
      = Cert.Spec.edgesOf x3 i := by
  unfold Cert.Spec.edgesOf
  exact Finset.filter_congr fun e _ => by rw [dstCol_apply]

/-! ## The degrees -/

/-- The converted 32-bit count at node i is the number of in-edges of i: there are fewer than 2^31 edges, so the
    count does not wrap. -/
theorem degK_apply (x3 : IVec S16000000 32) (i : Fin 500000) :
    degK x3 (ix2 i (0 : Fin 1)) = Cert.Spec.deg (Cert.Spec.edgesOf x3) i := by
  have h : Host.scatter scatter_S500000x1_S16000000x1_S16000000x1_1_0_0_1 IntOp.addi
      (broadcastInDim S500000x1 ![] bcast_S_S500000x1 (constantI S_ 32 0#32)) (dstCol x3)
      (broadcastInDim S16000000x1 ![] bcast_S_S16000000x1 (constantI S_ 32 1#32)) (ix2 i (0 : Fin 1))
      = 0#32 + ∑ _e ∈ Cert.Spec.edgesOf x3 i, (1#32 : BitVec 32) := by
    rw [Cert.ScatterRows.scatter_addi_rows2 _ rfl rfl rfl rfl, filter_dstCol]
    rfl
  show (((Host.scatter scatter_S500000x1_S16000000x1_S16000000x1_1_0_0_1 IntOp.addi
      (broadcastInDim S500000x1 ![] bcast_S_S500000x1 (constantI S_ 32 0#32)) (dstCol x3)
      (broadcastInDim S16000000x1 ![] bcast_S_S16000000x1 (constantI S_ 32 1#32)) (ix2 i (0 : Fin 1))).toInt : ℝ) : EReal) = _
  rw [h, Cert.ScatterRows.toInt_count (by norm_num)]
  unfold Cert.Spec.deg
  rw [Int.cast_natCast]

/-! ## The aggregates -/

/-- A feature column aggregated: at node i, the sum over the in-edges of i of the column's entry at the edge's
    source row times the edge weight.  The scatter starts from the word +0.0, which is 0. -/
theorem aggOf_apply (x : FVec Ideal S500000x1 .f32) (x1 : FVec Ideal S16000000x1 .f32) (x2 x3 : IVec S16000000 32)
    (i : Fin 500000) :
    aggOf x x1 x2 x3 (ix2 i (0 : Fin 1))
      = ∑ e ∈ Cert.Spec.edgesOf x3 i, x (ix2 (Cert.Spec.rowOf x2 e) (0 : Fin 1)) * x1 (ix2 e (0 : Fin 1)) := by
  unfold aggOf
  rw [Cert.ScatterRows.scatterAdd_rows2 _ rfl rfl rfl rfl, filter_dstCol]
  have h0 : broadcastInDim S500000x1 ![] bcast_S_S500000x1 (constant (F := Ideal) S_ .f32 0x00000000#32)
      (ix2 i (0 : Fin 1)) = 0 := Ideal.ofBits_zero_f32
  rw [h0, zero_add]
  refine Finset.sum_congr rfl fun e _ => ?_
  rw [mulf_apply, Cert.GatherRows.gather_rows2 (by norm_num) _ rfl rfl rfl rfl rfl]
  simp only [srcCol_apply]
  rfl

/-! ## The weight rows -/

/-- The bias of layer one laid out as a row reads the bias vector. -/
theorem b1row_apply (x6 : FVec Ideal S10 .f32) (k : Fin 10) : b1row x6 (ix2 (0 : Fin 1) k) = x6 (ix1 k) := by
  unfold b1row
  exact shapeCast_apply x6 shapeCasts_S10_S1x10 (ix2 (0 : Fin 1) k) (ix1 k) (by
    rw [Shape.rowMajor_val_two, Shape.rowMajor_val_one]
    show k.val = 0 * 10 + k.val
    omega)

/-- A projection column laid out as a row reads the column. -/
theorem colRow_apply (x : FVec Ideal S10x1 .f32) (k : Fin 10) :
    colRow x (ix2 (0 : Fin 1) k) = x (ix2 k (0 : Fin 1)) := by
  unfold colRow
  exact transpose_apply [1, 0] x transposes_S10x1_S1x10_1_0 (ix2 (0 : Fin 1) k) (ix2 k (0 : Fin 1)) (fun b => match b with
    | ⟨0, _⟩ => rfl
    | ⟨1, _⟩ => rfl)

/-- The bias of layer two laid out as a 1 × 1 array reads the bias. -/
theorem b2_apply (x9 : FVec Ideal S1 .f32) :
    shapeCast S1x1 x9 shapeCasts_S1_S1x1 (ix2 (0 : Fin 1) (0 : Fin 1)) = x9 (ix1 (0 : Fin 1)) :=
  Columns.shapeCast_a_a1_apply x9 shapeCasts_S1_S1x1 0 0

/-! ## The two calls -/

/-- The first call's projection on a weight column w, at node n: the sum over the ten hidden units of the unit
    (the specification's `s1`) times the column's entry. -/
theorem proj_stage_apply (x0 : FVec Ideal S500000x1 .f32) (x1 : FVec Ideal S16000000x1 .f32) (x2 x3 : IVec S16000000 32)
    (x4 x5 : FVec Ideal S1x10 .f32) (x6 : FVec Ideal S10 .f32) (w : FVec Ideal S10x1 .f32) (n : Fin 500000) :
    proj x0 (aggOf x0 x1 x2 x3) (degK x3) x4 x5 (b1row x6) (colRow w) (ix2 n (0 : Fin 1))
      = ∑ k : Fin 10,
          Cert.Spec.s1 (fun n : Fin 500000 => x0 (ix2 n (0 : Fin 1))) (fun e : Fin 16000000 => x1 (ix2 e (0 : Fin 1)))
            (Cert.Spec.rowOf x2) (Cert.Spec.edgesOf x3)
            (fun k : Fin 10 => x4 (ix2 (0 : Fin 1) k)) (fun k : Fin 10 => x5 (ix2 (0 : Fin 1) k))
            (fun k : Fin 10 => x6 (ix1 k)) n k * w (ix2 k (0 : Fin 1)) := by
  unfold proj
  refine Finset.sum_congr rfl fun k _ => ?_
  rw [colRow_apply]
  refine congrArg (fun t : EReal => t * w (ix2 k (0 : Fin 1))) ?_
  unfold unit Cert.Spec.s1
  rw [b1row_apply]
  show Ideal.logistic (x0 (ix2 n (0 : Fin 1)) * x4 (ix2 (0 : Fin 1) k)
      + Cert.Spec.mean (degK x3 (ix2 n (0 : Fin 1))) (aggOf x0 x1 x2 x3 (ix2 n (0 : Fin 1))) * x5 (ix2 (0 : Fin 1) k)
      + x6 (ix1 k)) = _
  rw [degK_apply, aggOf_apply]
  rfl

/-- The kernel program's result at node i is `Spec.outK` of the inputs read entry by entry. -/
theorem out_apply (x0 : FVec Ideal S500000x1 .f32) (x1 : FVec Ideal S16000000x1 .f32) (x2 x3 : IVec S16000000 32)
    (x4 x5 : FVec Ideal S1x10 .f32) (x6 : FVec Ideal S10 .f32) (x7 x8 : FVec Ideal S10x1 .f32) (x9 : FVec Ideal S1 .f32)
    (i : Fin 500000) :
    OUT x0 x1 x2 x3 x4 x5 x6 x7 x8 x9 (ix2 i (0 : Fin 1))
      = Cert.Spec.outK (fun n : Fin 500000 => x0 (ix2 n (0 : Fin 1))) (fun e : Fin 16000000 => x1 (ix2 e (0 : Fin 1)))
          (Cert.Spec.rowOf x2) (Cert.Spec.edgesOf x3)
          (fun k : Fin 10 => x4 (ix2 (0 : Fin 1) k)) (fun k : Fin 10 => x5 (ix2 (0 : Fin 1) k)) (fun k : Fin 10 => x6 (ix1 k))
          (fun k : Fin 10 => x7 (ix2 k (0 : Fin 1))) (fun k : Fin 10 => x8 (ix2 k (0 : Fin 1))) (x9 (ix1 (0 : Fin 1))) i := by
  unfold OUT
  show (P1 x0 x1 x2 x3 x4 x5 x6 x7 (ix2 i (0 : Fin 1))
      + Cert.Spec.mean (degK x3 (ix2 i (0 : Fin 1)))
          (aggOf (Q1 x0 x1 x2 x3 x4 x5 x6 x8) x1 x2 x3 (ix2 i (0 : Fin 1))))
      + shapeCast S1x1 x9 shapeCasts_S1_S1x1 (ix2 (0 : Fin 1) (0 : Fin 1)) = _
  rw [degK_apply, aggOf_apply, b2_apply]
  unfold P1 Q1
  simp only [proj_stage_apply]
  rfl

end Cert.KernelIdeal.Stages

end
-- ==== Proof.SpecLaw.lean ====
/-
  The law that joins the two programs: the mean over the in-edges is linear, and the edge weight is one number per
  edge, so projecting the ten hidden units on the weights w and then averaging over the in-edges is averaging each
  unit and then projecting.  It holds where every number involved is a real (on the extended reals a product does
  not distribute over a sum with infinities): the hidden units are values of the logistic, which are always reals;
  the edge weights and the projection weights are finite by the precondition.
-/
import Idealize.ShloMosaic.PureOps.Ideal
import Idealize.ShloMosaic.PureOps.Ideal.Laws
import proofs.«402566_j21191368638621_3_alg».proof.Proof.Spec

noncomputable section

namespace Cert.Spec

open Idealize.ShloMosaic

/-- The logistic of any extended real is a real (0 at -∞, 1 at +∞). -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- The f32 word 0x3F800000 denotes the real 1. -/
theorem one32_eq : one32 = 1 := by
  simp [one32, Ideal.ofBits, Ideal.ieee, -EReal.coe_mul]; norm_num

/-- A finite sum of coerced reals is the coercion of the real sum. -/
theorem coe_sum {ι : Type} (A : Finset ι) (f : ι → ℝ) :
    ∑ e ∈ A, ((f e : ℝ) : EReal) = ((∑ e ∈ A, f e : ℝ) : EReal) := by
  classical
  refine Finset.induction_on A (by simp) ?_
  intro a s ha ih
  rw [Finset.sum_insert ha, Finset.sum_insert ha, ih, EReal.coe_add]

/-- On a real aggregate `a` and a degree `n` that is a natural number, the mean is the real 0 at n = 0 and the
    real quotient a · (1 / n) otherwise. -/
theorem mean_coe (n : ℕ) (a : ℝ) :
    mean (((n : ℝ)) : EReal) (a : EReal) = (((if n = 0 then 0 else a * (1 / (n : ℝ))) : ℝ) : EReal) := by
  unfold mean
  rw [show zero32 = 0 from Ideal.ofBits_zero_f32, one32_eq]
  by_cases hn : n = 0
  · subst hn
    have hc : Ideal.cmp .ogt (((0 : ℕ) : ℝ) : EReal) 0 = 0#1 := by simp [Ideal.cmp]
    rw [hc, ValueIdx.select_zero]; simp
  · have hpos : (1 : ℝ) ≤ n := by exact_mod_cast Nat.one_le_iff_ne_zero.mpr hn
    have hn0 : (n : ℝ) ≠ 0 := by exact_mod_cast hn
    have hc : Ideal.cmp .ogt (((n : ℝ)) : EReal) 0 = 1#1 := by
      have h0 : (0 : EReal) < ((n : ℝ) : EReal) := by exact_mod_cast (lt_of_lt_of_le one_pos hpos)
      have hd : decide ((0 : EReal) < ((n : ℝ) : EReal)) = true := decide_eq_true h0
      show BitVec.ofBool (decide ((0 : EReal) < ((n : ℝ) : EReal))) = 1#1
      rw [hd]; rfl
    have hmax : max (((n : ℝ)) : EReal) 1 = ((n : ℝ) : EReal) := max_eq_left (by exact_mod_cast hpos)
    rw [hc, ValueIdx.select_one, hmax, Ideal.div_coe hn0, if_neg hn, EReal.coe_mul]

/-- Averaging the projected number over the in-edges A is projecting the averaged units. -/
theorem mean_proj {ι κ : Type} [Fintype κ] (A : Finset ι) (s : ι → κ → EReal) (ef : ι → EReal) (wn : κ → EReal)
    (hs : ∀ e k, ∃ r : ℝ, s e k = (r : EReal)) (hef : ∀ e, ∃ r : ℝ, ef e = (r : EReal))
    (hw : ∀ k, ∃ r : ℝ, wn k = (r : EReal)) :
    mean (((A.card : ℝ) : EReal)) (∑ e ∈ A, (∑ k, s e k * wn k) * ef e)
      = ∑ k, mean (((A.card : ℝ) : EReal)) (∑ e ∈ A, s e k * ef e) * wn k := by
  classical
  choose s' hs' using hs
  choose ef' hef' using hef
  choose wn' hwn' using hw
  obtain rfl : s = fun e k => ((s' e k : ℝ) : EReal) := funext fun e => funext fun k => hs' e k
  obtain rfl : ef = fun e => ((ef' e : ℝ) : EReal) := funext hef'
  obtain rfl : wn = fun k => ((wn' k : ℝ) : EReal) := funext hwn'
  -- every sum and product is one of reals: push the coercion outwards
  simp only [← EReal.coe_mul, coe_sum, mean_coe]
  rw [EReal.coe_eq_coe_iff]
  by_cases hn : A.card = 0
  · simp [hn]
  · simp only [if_neg hn]
    -- in ℝ: (Σ_e (Σ_k s·w)·ef)·c = Σ_k ((Σ_e s·ef)·c)·w
    simp only [Finset.sum_mul]
    rw [Finset.sum_comm]
    refine Finset.sum_congr rfl fun k _ => Finset.sum_congr rfl fun e _ => ?_
    ring

/-- The kernel's formula and the reference's agree where the edge weights and the neighbour weights of layer two
    are reals. -/
theorem outK_eq_outR {ι ν : Type} (h : ν → EReal) (ef : ι → EReal) (row : ι → ν) (A : ν → Finset ι)
    (w1s w1n b1 w2s w2n : Fin 10 → EReal) (b2 : EReal)
    (hef : ∀ e, ∃ r : ℝ, ef e = (r : EReal)) (hw : ∀ k, ∃ r : ℝ, w2n k = (r : EReal)) (i : ν) :
    outK h ef row A w1s w1n b1 w2s w2n b2 i = outR h ef row A w1s w1n b1 w2s w2n b2 i := by
  unfold outK outR
  rw [show deg A i = (((A i).card : ℝ) : EReal) from rfl]
  unfold q1
  rw [mean_proj (A i) (fun e k => s1 h ef row A w1s w1n b1 (row e) k) ef w2n
    (fun e k => logistic_real _) hef hw]

end Cert.Spec

end
-- ==== Proof.Finite.lean ====
/-
  What the precondition gives the proof: the edge weights and the neighbour weights of layer two are reals.

  The precondition is the conjunction, over the eight float inputs, of "every entry's absolute value is below +∞".
-/
import proofs.«402566_j21191368638621_3_alg».proof.Pre_finite_inputs
import proofs.«402566_j21191368638621_3_alg».proof.Proof.Gen.Pre_finite_inputs
import Idealize.ShloMosaic.PureOps.Ideal
import Idealize.ShloMosaic.Lib.ReduceAll

noncomputable section

namespace Cert.Finite

open Idealize.ShloMosaic Cert.Pre_finite_inputs

/-- The pattern `0x7F800000` (exponent all ones, significand zero, sign clear) denotes `+∞`. -/
private theorem inf_bits : Ideal.ofBits .f32 0x7F800000#32 = (⊤ : EReal) := by
  simp [Ideal.ofBits, Ideal.ieee]

/-- An extended real whose absolute value `max x (-x)` is below `+∞` is neither infinity: it is a real. -/
private theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- The rank-0 shape has one index. -/
private instance : Subsingleton S_.Idx := ⟨fun a b => funext fun d => d.elim0⟩

/-- One conjunct of the precondition, read back: where the reduction by `and` over all axes of
    "`|a j| < +∞`" is 1, every entry of `a` is a real. -/
private theorem reals_of_all {s : Shape} {axes : List (Fin s.rank)} (a : FVec Ideal s .f32)
    (hb : S_.BroadcastsInDim s (![] : Fin 0 → Fin s.rank)) (hr : s.ReducesTo axes S_) (hu : 0 < S_.numel)
    (j0 : S_.Idx)
    (e : Host.reduce IntOp.andi (cmpf .olt (Host.absf a) (broadcastInDim s ![] hb (constant S_ .f32 0x7F800000#32)))
        (constantI S_ 1 1#1) hr hu j0 = 1#1) :
    ∀ j, ∃ r : ℝ, a j = (r : EReal) := by
  intro j
  have hj := Host.reduce_andi_all _ _ hr hu j0 e j
  exact real_of_abs_lt (a j) hj

/-- Where the precondition holds of the ten inputs, every edge weight (input 1) and every neighbour weight of layer
    two (input 8) is a real number. -/
theorem reals_of_pre [hP : Cert.Pre_finite_inputs.Facts]
    (a0 : FVec Ideal S500000x1 .f32) (a1 : FVec Ideal S16000000x1 .f32) (a2 a3 : IVec S16000000 32)
    (a4 a5 : FVec Ideal S1x10 .f32) (a6 : FVec Ideal S10 .f32) (a7 a8 : FVec Ideal S10x1 .f32) (a9 : FVec Ideal S1 .f32)
    (h : Cert.Pre_finite_inputs.fn (F := Ideal) a0 a1 a2 a3 a4 a5 a6 a7 a8 a9 = fun _ => 1#1) :
    (∀ j, ∃ r : ℝ, a1 j = (r : EReal)) ∧ (∀ j, ∃ r : ℝ, a8 j = (r : EReal)) := by
  have h0 := congrFun h (fun d => d.elim0)
  dsimp only [fn, fn_part1, fn_part2, Idealize.ShloMosaic.andi] at h0
  simp only [IntOp.andi_eq_one] at h0
  -- the chain of `and`s is left-nested: inputs 0, 1, 4, 5, 6, 7, 8, 9 in this order
  obtain ⟨⟨⟨⟨⟨⟨⟨_, h1⟩, _⟩, _⟩, _⟩, _⟩, h8⟩, _⟩ := h0
  exact ⟨reals_of_all a1 _ _ _ _ h1, reals_of_all a8 _ _ _ _ h8⟩

end Cert.Finite

end
-- ==== Proof.lean ====
/-
  A two-layer mean-aggregating graph network on 500000 nodes and 16000000 weighted edges: the kernel program against
  its reference, over the exact reals.

  Both programs gather the source features along the edges, weight them, sum them into the destination nodes and
  divide by the in-degree.  The reference carries the ten hidden units of layer one through layer two's aggregation
  and projects the ten means on the neighbour weights.  The kernel projects the hidden units first — one number per
  node — and aggregates that one number.  The mean over the in-edges is linear and an edge's weight is one number, so
  the two orders agree wherever the numbers are reals: the hidden units are logistic values, hence reals, and the edge
  weights and the neighbour weights are finite by the precondition (`Spec.outK_eq_outR`).  The kernel counts the
  in-degrees in 32-bit integers, the reference sums ones: fewer than 2^31 edges, so the two counts are one number.

  The three frames: the kernel programs' are generated; the reference's is its run with the result dropped.
  `preserves` has nothing to state (the idealization rewrote no operation).  `algebraic`: the kernel program's run
  with its result array named (KernelRun) and read back through the two calls and the host stretches
  (KernelValue: the composition `Stages.OUT`), read at a node (KernelStagesValue: `Spec.outK`); the reference's run
  (RefRun) read at a node (RefValue: `Spec.outR`); the law between the two.
-/
import proofs.«402566_j21191368638621_3_alg».proof.Defs
import proofs.«402566_j21191368638621_3_alg».proof.Proof.Gen.Kernel
import proofs.«402566_j21191368638621_3_alg».proof.Proof.Gen.Kernel.Skeleton
import proofs.«402566_j21191368638621_3_alg».proof.Proof.Gen.Kernel.Launch
import proofs.«402566_j21191368638621_3_alg».proof.Proof.Gen.Kernel.Points
import proofs.«402566_j21191368638621_3_alg».proof.Proof.Gen.Kernel.Frame
import proofs.«402566_j21191368638621_3_alg».proof.Proof.Gen.KernelIdeal
import proofs.«402566_j21191368638621_3_alg».proof.Proof.Gen.KernelIdeal.Skeleton
import proofs.«402566_j21191368638621_3_alg».proof.Proof.Gen.KernelIdeal.Launch
import proofs.«402566_j21191368638621_3_alg».proof.Proof.Gen.KernelIdeal.Points
import proofs.«402566_j21191368638621_3_alg».proof.Proof.Gen.KernelIdeal.Frame
import proofs.«402566_j21191368638621_3_alg».proof.Proof.Gen.ReferenceIdeal
import proofs.«402566_j21191368638621_3_alg».proof.Proof.Gen.Pre_finite_inputs
import proofs.«402566_j21191368638621_3_alg».proof.Proof.RefRun
import proofs.«402566_j21191368638621_3_alg».proof.Proof.RefRead
import proofs.«402566_j21191368638621_3_alg».proof.Proof.RefValue
import proofs.«402566_j21191368638621_3_alg».proof.Proof.KernelRun
import proofs.«402566_j21191368638621_3_alg».proof.Proof.KernelValue
import proofs.«402566_j21191368638621_3_alg».proof.Proof.KernelStagesValue
import proofs.«402566_j21191368638621_3_alg».proof.Proof.SpecLaw
import proofs.«402566_j21191368638621_3_alg».proof.Proof.Finite
import Idealize.ShloMosaic.Adequacy
import Idealize.ShloMosaic.Init

noncomputable section

namespace Cert.Proof

open Idealize.ShloMosaic Idealize.ShloMosaic.ValueIdx Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunP.run (F := Ideal) m ρ)

/-- The two programs' results are one array: at every node the kernel's formula and the reference's agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Stages.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.RunValue.result_eq m ρ c), (h c).2⟩)
      (Cert.KernelIdeal.RunV.run_v0 (F := Ideal) m ρ)
  · refine (θ_run Cert.ReferenceIdeal.defs _ _).mono (fun _ h c => ⟨(h c).1.trans ?_, (h c).2⟩)
      (Cert.ReferenceIdeal.RunP.run (F := Ideal) m' ρ')
    obtain ⟨hf1, hf8⟩ := Cert.Finite.reals_of_pre _ _ _ _ _ _ _ _ _ _ (hpre c)
    rw [Cert.ReferenceIdeal.ReadP.val_main_v61_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    funext j
    obtain ⟨i, q, rfl⟩ : ∃ (i : Fin 500000) (q : Fin 1), j = ix2 i q := ⟨j 0, j 1, eq_ix2 j⟩
    obtain rfl : q = 0 := Subsingleton.elim q 0
    refine (Cert.RefValue.ref_out _ _ _ _ _ _ _ _ _ _ i).trans ?_
    refine Eq.trans ?_ (Cert.KernelIdeal.Stages.out_apply _ _ _ _ _ _ _ _ _ _ i).symm
    exact (Cert.Spec.outK_eq_outR _ _ _ _ _ _ _ _ _ _ (fun e => hf1 _) (fun k => hf8 _) i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
